-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩
abbrev S2x2048 : Shape := ⟨2, ![2, 2048]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x2048x2048 : S_.BroadcastsInDim S2x2048x2048 (![] : Fin 0 → Fin S2x2048x2048.rank)
  reducesTo_S2x2048x2048_S2x2048_d2 : S2x2048x2048.ReducesTo [2] S2x2048
  reducesTo_S2x2048_S_d0_1 : S2x2048.ReducesTo [0, 1] S_

variable [Facts]

def fn_part1 {F : FTy → Type} [FloatOps F] (main_v13 : IVec S_ 1) (main_v15 : IVec S2x2048x2048 1) (main_c_5 : IVec S_ 1) : IVec S_ 1 :=
  let main_v16 : IVec S2x2048 1 := (fun x v => Host.reduce IntOp.ori x v reducesTo_S2x2048x2048_S2x2048_d2 h_S_) main_v15 main_c_5
  let main_c_6 : IVec S_ 1 := constantI S_ 1 1#1
  let main_v17 : IVec S_ 1 := (fun x v => Host.reduce IntOp.andi x v reducesTo_S2x2048_S_d0_1 h_S_) main_v16 main_c_6
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : IVec S2x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_c_4 : IVec S_ 32 := constantI S_ 32 0#32
  let main_v14 : IVec S2x2048x2048 32 := broadcastInDim S2x2048x2048 ![] bcast_S_S2x2048x2048 main_c_4
  let main_v15 : IVec S2x2048x2048 1 := cmpi .ne main_arg3 main_v14
  let main_c_5 : IVec S_ 1 := constantI S_ 1 0#1
  fn_part1 (F := F) main_v13 main_v15 main_c_5
-- ==== Kernel.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S1x16x64x64 : Shape := ⟨4, ![1, 16, 64, 64]⟩
abbrev S1x16x2048x64 : Shape := ⟨4, ![1, 16, 2048, 64]⟩
abbrev S1x64x2048 : Shape := ⟨3, ![1, 64, 2048]⟩
abbrev S1x16x64x2048 : Shape := ⟨4, ![1, 16, 64, 2048]⟩
abbrev S64x2048 : Shape := ⟨2, ![64, 2048]⟩
abbrev S1x1x64x64 : Shape := ⟨4, ![1, 1, 64, 64]⟩
abbrev S1x64x64 : Shape := ⟨3, ![1, 64, 64]⟩
abbrev S1x1x2048x64 : Shape := ⟨4, ![1, 1, 2048, 64]⟩
abbrev S1x2048x64 : Shape := ⟨3, ![1, 2048, 64]⟩
abbrev S1x64 : Shape := ⟨2, ![1, 64]⟩
abbrev S1x64x1 : Shape := ⟨3, ![1, 64, 1]⟩
abbrev S1x1x64x2048 : Shape := ⟨4, ![1, 1, 64, 2048]⟩

abbrev nBuf : Space → Nat
  | .hbm => 6
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x64, .f32⟩
  | .hbm, ⟨5, _⟩ => ⟨S2x16x2048x2048, .f32⟩
  | .local _ .vmem, ⟨0, _⟩ => ⟨S1x16x64x64, .f32⟩
  | .local _ .vmem, ⟨1, _⟩ => ⟨S1x16x64x64, .f32⟩
  | .local _ .vmem, ⟨2, _⟩ => ⟨S1x16x2048x64, .f32⟩
  | .local _ .vmem, ⟨3, _⟩ => ⟨S1x16x2048x64, .f32⟩
  | .local _ .vmem, ⟨4, _⟩ => ⟨S1x64x2048, .i32⟩
  | .local _ .vmem, ⟨5, _⟩ => ⟨S1x64x2048, .i32⟩
  | .local _ .vmem, ⟨6, _⟩ => ⟨S1x16x64x64, .f32⟩
  | .local _ .vmem, ⟨7, _⟩ => ⟨S1x16x64x64, .f32⟩
  | .local _ .vmem, ⟨8, _⟩ => ⟨S1x16x64x2048, .f32⟩
  | .local _ .vmem, ⟨9, _⟩ => ⟨S1x16x64x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_2 : BitVec 32 := 0#32
  let c16_i32 : BitVec 32 := 16#32
  let v4 : BitVec 32 := Scalar.addi c0_i32_2 c16_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg8 : BitVec 32 := Scf.iv c0_i32_2 c1_i32 k0_t1
  let c1_i32_4 : BitVec 32 := 1#32
  let v5 : BitVec 32 := Scalar.muli arg8 c1_i32_4
  v5
def k0_off1 (k0_t1 : Fin k0_t1_loop.trips) : Fin 4 → Nat :=
  let c0_5 : Index := 0#32
  let c0_i32_2 : BitVec 32 := 0#32
  let c1_i32 : BitVec 32 := 1#32
  let arg8 : BitVec 32 := Scf.iv c0_i32_2 c1_i32 k0_t1
  let c1_i32_4 : BitVec 32 := 1#32
  let v5 : BitVec 32 := Scalar.muli arg8 c1_i32_4
  let v6 : BitVec 32 := v5
  let v7 : Index := Scalar.indexCast v6
  let c0_6 : Index := 0#32
  let c0_7 : Index := 0#32
  ![0, v7.toNat, 0, 0]
def k0_off2 (k0_t1 : Fin k0_t1_loop.trips) : Fin 4 → Nat :=
  let c0_8 : Index := 0#32
  let c0_i32_2 : BitVec 32 := 0#32
  let c1_i32 : BitVec 32 := 1#32
  let arg8 : BitVec 32 := Scf.iv c0_i32_2 c1_i32 k0_t1
  let c1_i32_4 : BitVec 32 := 1#32
  let v5 : BitVec 32 := Scalar.muli arg8 c1_i32_4
  let v6 : BitVec 32 := v5
  let v10 : Index := Scalar.indexCast v6
  let c0_9 : Index := 0#32
  let c0_10 : Index := 0#32
  ![0, v10.toNat, 0, 0]
def k0_off3 (k0_t1 : Fin k0_t1_loop.trips) : Fin 4 → Nat :=
  let c0_20 : Index := 0#32
  let c0_i32_2 : BitVec 32 := 0#32
  let c1_i32 : BitVec 32 := 1#32
  let arg8 : BitVec 32 := Scf.iv c0_i32_2 c1_i32 k0_t1
  let c1_i32_4 : BitVec 32 := 1#32
  let v5 : BitVec 32 := Scalar.muli arg8 c1_i32_4
  let v6 : BitVec 32 := v5
  let v38 : Index := Scalar.indexCast v6
  let c0_21 : Index := 0#32
  let c0_22 : Index := 0#32
  ![0, v38.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x64x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  h_S1x1x64x64 : 0 < S1x1x64x64.numel
  shapeCasts_S1x1x64x64_S1x64x64 : S1x1x64x64.ShapeCasts S1x64x64
  h_S1x1x2048x64 : 0 < S1x1x2048x64.numel
  shapeCasts_S1x1x2048x64_S1x2048x64 : S1x1x2048x64.ShapeCasts S1x2048x64
  bitsLt_bf16_f32 : FTy.bits .bf16 < FTy.bits .f32
  shapeCasts_S64x2048_S1x64x2048 : S64x2048.ShapeCasts S1x64x2048
  reduces_S1x64x2048_S1x64 : S1x64x2048.Reduces [2] S1x64
  shapeCasts_S1x64_S1x64x1 : S1x64.ShapeCasts S1x64x1
  broadcasts_S1x64x1_S1x64x2048 : S1x64x1.Broadcasts S1x64x2048
  h_S1x1x64x2048 : 0 < S1x1x64x2048.numel
  shapeCasts_S1x1x64x2048_S1x64x2048 : S1x1x64x2048.ShapeCasts S1x64x2048
  shapeCasts_S1x64x2048_S1x1x64x2048 : S1x64x2048.ShapeCasts S1x1x64x2048
  shapeCasts_S1x64x64_S1x1x64x64 : S1x64x64.ShapeCasts S1x1x64x64
  dot_S1x64x64_S1x2048x64_S1x64x2048_2_2_1_1_0_0_wf : DotDims.WF S1x64x64 S1x2048x64 S1x64x2048 [2] [2] [1] [1] [0] [0]
  dot_S1x64x2048_S1x2048x64_S1x64x64_2_1_1_2_0_0_wf : DotDims.WF S1x64x2048 S1x2048x64 S1x64x64 [2] [1] [1] [2] [0] [0]
  hrank0 : 0 < grid0.rank
  k0_t1_ok : k0_t1_loop.OK
  k0_mult1_dvd : ∀ k0_t1 : Fin k0_t1_loop.trips, 1 ∣ (k0_mult1 k0_t1).toNat
  k0_off1_inb : ∀ k0_t1 : Fin k0_t1_loop.trips, ∀ a, (k0_off1 k0_t1) a + S1x1x64x64.size a ≤ S1x16x64x64.size a
  k0_off2_inb : ∀ k0_t1 : Fin k0_t1_loop.trips, ∀ a, (k0_off2 k0_t1) a + S1x1x2048x64.size a ≤ S1x16x2048x64.size a
  k0_off3_inb : ∀ k0_t1 : Fin k0_t1_loop.trips, ∀ a, (k0_off3 k0_t1) a + S1x1x64x2048.size a ≤ S1x16x64x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x64.size a ≤ S2x16x2048x64.size a
  hwx0_0 : ∀ i : grid0.Coords, EltTy.bits .f32 = 32 ∨ (Rect.block (s := S2x16x2048x64) S1x16x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S2x16x2048x64.size a
  hwx0_1 : ∀ i : grid0.Coords, EltTy.bits .f32 = 32 ∨ (Rect.block (s := S2x16x2048x64) S1x16x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S2x16x2048x64.size a
  hwx0_2 : ∀ i : grid0.Coords, EltTy.bits .f32 = 32 ∨ (Rect.block (s := S2x16x2048x64) S1x16x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S2x2048x2048.size a
  hwx0_3 : ∀ i : grid0.Coords, EltTy.bits .i32 = 32 ∨ (Rect.block (s := S2x2048x2048) S1x64x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x64x64.size a ≤ S2x16x2048x64.size a
  hwx0_4 : ∀ i : grid0.Coords, EltTy.bits .f32 = 32 ∨ (Rect.block (s := S2x16x2048x64) S1x16x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x64x2048.size a ≤ S2x16x2048x2048.size a
  hwx0_5 : ∀ i : grid0.Coords, EltTy.bits .f32 = 32 ∨ (Rect.block (s := S2x16x2048x2048) S1x16x64x2048.size (cc0_transform_5 i) (hinb0_5 i)).WholeWords (EltTy.packing .f32)

variable [Facts₀]

def dot_S1x64x64_S1x2048x64_S1x64x2048_2_2_1_1_0_0 : DotDims S1x64x64 S1x2048x64 S1x64x2048 where
  lhsContracting := [2]
  rhsContracting := [2]
  lhsNonContracting := [1]
  rhsNonContracting := [1]
  lhsBatch := [0]
  rhsBatch := [0]
  wf := dot_S1x64x64_S1x2048x64_S1x64x2048_2_2_1_1_0_0_wf
def dot_S1x64x2048_S1x2048x64_S1x64x64_2_1_1_2_0_0 : DotDims S1x64x2048 S1x2048x64 S1x64x64 where
  lhsContracting := [2]
  rhsContracting := [1]
  lhsNonContracting := [1]
  rhsNonContracting := [2]
  lhsBatch := [0]
  rhsBatch := [0]
  wf := dot_S1x64x2048_S1x2048x64_S1x64x64_2_1_1_2_0_0_wf

abbrev win0_0 : Pipeline.Window sig grid0 :=
  Pipeline.Window.ofSpec (Memref.whole main_arg0) S1x16x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x16x64x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x16x64x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x1x2048x2048, .i32⟩
  | .hbm, ⟨9, _⟩ => ⟨S_, .i32⟩
  | .hbm, ⟨10, _⟩ => ⟨S2x1x2048x2048, .i32⟩
  | .hbm, ⟨11, _⟩ => ⟨S2x1x2048x2048, .i1⟩
  | .hbm, ⟨12, _⟩ => ⟨S_, .f32⟩
  | .hbm, ⟨13, _⟩ => ⟨S_, .f32⟩
  | .hbm, ⟨14, _⟩ => ⟨S2x16x2048x2048, .i1⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.TripPiecesK.lean ====
/-
  The body's loop runs the sixteen heads one after the other: trip `k` loads head `k`'s slab of the query, key and
  value blocks, computes the head's attention weights and output, and stores each as ONE tile at head offset `k` of
  the two output blocks. Here the trip's two stores are named once (`headOut`, `headAttn`: the stored tiles as
  functions of the blocks' contents and the trip), and the stores of the trips before `n` are shown to be the list of
  the first `n` equal-sized tiles along the head axis, newest first.
-/
import proofs.«426384_j44942537785819_3_alg».proof.Proof.Gen.Kernel.Loops
import Idealize.ShloMosaic.Lib.WritesUnit

set_option maxRecDepth 16384

noncomputable section

namespace Cert.Attention.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop makes sixteen trips. -/
theorem trips_eq : k0_t1_loop.trips = 16 := by decide +kernel

/-- Head `k`'s slab of the query block, as the trip loads it, -/
abbrev qSlab (arg2 : Memref sig .tc .vmem S1x16x64x64 .f32) (X_arg2 : BufTy.Contents (Elt F) arg2.view.ty)
    (k : Fin k0_t1_loop.trips) : Vec F S1x1x64x64 .f32 :=
  View.readAt (Elt F) arg2.view (Rect.unit (s := S1x16x64x64) (k0_off1 k) S1x1x64x64.size (k0_off1_inb k)).toLoadRect X_arg2

/-- and of a key or value block. -/
abbrev kvSlab (arg3 : Memref sig .tc .vmem S1x16x2048x64 .f32) (X_arg3 : BufTy.Contents (Elt F) arg3.view.ty)
    (k : Fin k0_t1_loop.trips) : Vec F S1x1x2048x64 .f32 :=
  View.readAt (Elt F) arg3.view (Rect.unit (s := S1x16x2048x64) (k0_off2 k) S1x1x2048x64.size (k0_off2_inb k)).toLoadRect X_arg3

/-- The tile trip `k` stores into the output block: head `k`'s output. -/
def headOut (arg2 : Memref sig .tc .vmem S1x16x64x64 .f32) (arg3 : Memref sig .tc .vmem S1x16x2048x64 .f32) (arg4 : Memref sig .tc .vmem S1x16x2048x64 .f32) (v0 : Vec F S1x64x2048 .i32) (X_arg2 : BufTy.Contents (Elt F) arg2.view.ty) (X_arg3 : BufTy.Contents (Elt F) arg3.view.ty) (X_arg4 : BufTy.Contents (Elt F) arg4.view.ty) (k : Fin k0_t1_loop.trips) : S1x1x64x64.Idx → Elt F .f32 :=
  k0_pay2 (k0_pay4 (k0_pay1 v0) (qSlab arg2 X_arg2 k) (kvSlab arg3 X_arg3 k) (kvSlab arg4 X_arg4 k))

/-- The tile trip `k` stores into the weights' block: head `k`'s attention weights. -/
def headAttn (arg2 : Memref sig .tc .vmem S1x16x64x64 .f32) (arg3 : Memref sig .tc .vmem S1x16x2048x64 .f32) (v0 : Vec F S1x64x2048 .i32) (X_arg2 : BufTy.Contents (Elt F) arg2.view.ty) (X_arg3 : BufTy.Contents (Elt F) arg3.view.ty) (k : Fin k0_t1_loop.trips) : S1x1x64x2048.Idx → Elt F .f32 :=
  k0_pay5 (k0_pay1 v0) (qSlab arg2 X_arg2 k) (kvSlab arg3 X_arg3 k)

/-- Trip `k`'s stores, whatever it finds in the two output blocks: one tile each. -/
theorem tripL_eq (𝒱 : Variants) (c : Dev nD) (bd : Option 𝒱.V) (i : grid0.Coords) (arg2 : Memref sig .tc .vmem S1x16x64x64 .f32) (harg2 : arg2.IsWhole) (arg3 : Memref sig .tc .vmem S1x16x2048x64 .f32) (harg3 : arg3.IsWhole) (arg4 : Memref sig .tc .vmem S1x16x2048x64 .f32) (harg4 : arg4.IsWhole) (arg5 : Memref sig .tc .vmem S1x64x2048 .i32) (harg5 : arg5.IsWhole) (arg6 : Memref sig .tc .vmem S1x16x64x64 .f32) (harg6 : arg6.IsWhole) (arg7 : Memref sig .tc .vmem S1x16x64x2048 .f32) (harg7 : arg7.IsWhole) (v0 : Vec F S1x64x2048 .i32) (X_arg2 : BufTy.Contents (Elt F) arg2.view.ty) (X_arg3 : BufTy.Contents (Elt F) arg3.view.ty) (X_arg4 : BufTy.Contents (Elt F) arg4.view.ty) (k : Fin k0_t1_loop.trips)
    (f6 : BufTy.Contents (Elt F) arg6.view.ty) (f7 : BufTy.Contents (Elt F) arg7.view.ty) :
    tripL_k0_t1 (F := F) 𝒱 c bd i arg2 harg2 arg3 harg3 arg4 harg4 arg5 harg5 arg6 harg6 arg7 harg7 v0 X_arg2 X_arg3 X_arg4 k f6 f7
      = ([⟨Rect.unit (k0_off1 k) S1x1x64x64.size (k0_off1_inb k), headOut arg2 arg3 arg4 v0 X_arg2 X_arg3 X_arg4 k⟩],
         [⟨Rect.unit (k0_off3 k) S1x1x64x2048.size (k0_off3_inb k), headAttn arg2 arg3 v0 X_arg2 X_arg3 k⟩]) := by
  unfold tripL_k0_t1 trip_k0_t1
  dsimp only
  unfold trip_k0_t1.sl.r
  rfl

/-- The stores of the trips before `n`, newest first: the first `n` tiles of each output block. -/
theorem pb_eq (𝒱 : Variants) (c : Dev nD) (bd : Option 𝒱.V) (i : grid0.Coords) (arg2 : Memref sig .tc .vmem S1x16x64x64 .f32) (harg2 : arg2.IsWhole) (arg3 : Memref sig .tc .vmem S1x16x2048x64 .f32) (harg3 : arg3.IsWhole) (arg4 : Memref sig .tc .vmem S1x16x2048x64 .f32) (harg4 : arg4.IsWhole) (arg5 : Memref sig .tc .vmem S1x64x2048 .i32) (harg5 : arg5.IsWhole) (arg6 : Memref sig .tc .vmem S1x16x64x64 .f32) (harg6 : arg6.IsWhole) (arg7 : Memref sig .tc .vmem S1x16x64x2048 .f32) (harg7 : arg7.IsWhole) (v0 : Vec F S1x64x2048 .i32) (X_arg2 : BufTy.Contents (Elt F) arg2.view.ty) (X_arg3 : BufTy.Contents (Elt F) arg3.view.ty) (X_arg4 : BufTy.Contents (Elt F) arg4.view.ty) (G_arg6 : BufTy.Contents (Elt F) arg6.view.ty) (G_arg7 : BufTy.Contents (Elt F) arg7.view.ty) :
    ∀ (n : ℕ) (hn : n ≤ k0_t1_loop.trips),
      pb_k0_t1 (F := F) 𝒱 c bd i arg2 harg2 arg3 harg3 arg4 harg4 arg5 harg5 arg6 harg6 arg7 harg7 v0 X_arg2 X_arg3 X_arg4 G_arg6 G_arg7 n
        = (View.tilePieces (s := S1x16x64x64) S1x1x64x64.size (fun k => k0_off1 k) k0_off1_inb
              (headOut arg2 arg3 arg4 v0 X_arg2 X_arg3 X_arg4) n hn,
           View.tilePieces (s := S1x16x64x2048) S1x1x64x2048.size (fun k => k0_off3 k) k0_off3_inb
              (headAttn arg2 arg3 v0 X_arg2 X_arg3) n hn)
  | 0, _ => rfl
  | n + 1, hn => by
    have ih := pb_eq 𝒱 c bd i arg2 harg2 arg3 harg3 arg4 harg4 arg5 harg5 arg6 harg6 arg7 harg7 v0 X_arg2 X_arg3 X_arg4 G_arg6 G_arg7 n (Nat.le_of_succ_le hn)
    rw [pb_k0_t1_succ (F := F) 𝒱 c bd i arg2 harg2 arg3 harg3 arg4 harg4 arg5 harg5 arg6 harg6 arg7 harg7 v0 X_arg2 X_arg3 X_arg4 G_arg6 G_arg7 ⟨n, hn⟩, tripL_eq, ih]
    rfl

/-- After the last trip: all sixteen tiles of each block. The trip count is spelt as the loop's bounds give it. The
    lists name the blocks' contents before the loop nowhere: each tile is a function of what the trip loads. -/
theorem pb_all (𝒱 : Variants) (c : Dev nD) (bd : Option 𝒱.V) (i : grid0.Coords) (arg2 : Memref sig .tc .vmem S1x16x64x64 .f32) (harg2 : arg2.IsWhole) (arg3 : Memref sig .tc .vmem S1x16x2048x64 .f32) (harg3 : arg3.IsWhole) (arg4 : Memref sig .tc .vmem S1x16x2048x64 .f32) (harg4 : arg4.IsWhole) (arg5 : Memref sig .tc .vmem S1x64x2048 .i32) (harg5 : arg5.IsWhole) (arg6 : Memref sig .tc .vmem S1x16x64x64 .f32) (harg6 : arg6.IsWhole) (arg7 : Memref sig .tc .vmem S1x16x64x2048 .f32) (harg7 : arg7.IsWhole) (v0 : Vec F S1x64x2048 .i32) (X_arg2 : BufTy.Contents (Elt F) arg2.view.ty) (X_arg3 : BufTy.Contents (Elt F) arg3.view.ty) (X_arg4 : BufTy.Contents (Elt F) arg4.view.ty) (G_arg6 : BufTy.Contents (Elt F) arg6.view.ty) (G_arg7 : BufTy.Contents (Elt F) arg7.view.ty) :
    pb_k0_t1 (F := F) 𝒱 c bd i arg2 harg2 arg3 harg3 arg4 harg4 arg5 harg5 arg6 harg6 arg7 harg7 v0 X_arg2 X_arg3 X_arg4 G_arg6 G_arg7 (Scf.trips k0_t1_loop.lb k0_t1_loop.ub k0_t1_loop.st)
      = (View.tilePieces (s := S1x16x64x64) S1x1x64x64.size (fun k => k0_off1 k) k0_off1_inb
            (headOut arg2 arg3 arg4 v0 X_arg2 X_arg3 X_arg4) k0_t1_loop.trips le_rfl,
         View.tilePieces (s := S1x16x64x2048) S1x1x64x2048.size (fun k => k0_off3 k) k0_off3_inb
            (headAttn arg2 arg3 v0 X_arg2 X_arg3) k0_t1_loop.trips le_rfl) :=
  pb_eq 𝒱 c bd i arg2 harg2 arg3 harg3 arg4 harg4 arg5 harg5 arg6 harg6 arg7 harg7 v0 X_arg2 X_arg3 X_arg4 G_arg6 G_arg7 k0_t1_loop.trips le_rfl

end Cert.Attention.K

end
-- ==== Proof.TripPieces.lean ====
/-
  The body's loop runs the sixteen heads one after the other: trip `k` loads head `k`'s slab of the query, key and
  value blocks, computes the head's attention weights and output, and stores each as ONE tile at head offset `k` of
  the two output blocks. Here the trip's two stores are named once (`headOut`, `headAttn`: the stored tiles as
  functions of the blocks' contents and the trip), and the stores of the trips before `n` are shown to be the list of
  the first `n` equal-sized tiles along the head axis, newest first.
-/
import proofs.«426384_j44942537785819_3_alg».proof.Proof.Gen.KernelIdeal.Loops
import Idealize.ShloMosaic.Lib.WritesUnit

set_option maxRecDepth 16384

noncomputable section

namespace Cert.Attention.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop makes sixteen trips. -/
theorem trips_eq : k0_t1_loop.trips = 16 := by decide +kernel

/-- Head `k`'s slab of the query block, as the trip loads it, -/
abbrev qSlab (arg2 : Memref sig .tc .vmem S1x16x64x64 .f32) (X_arg2 : BufTy.Contents (Elt F) arg2.view.ty)
    (k : Fin k0_t1_loop.trips) : Vec F S1x1x64x64 .f32 :=
  View.readAt (Elt F) arg2.view (Rect.unit (s := S1x16x64x64) (k0_off1 k) S1x1x64x64.size (k0_off1_inb k)).toLoadRect X_arg2

/-- and of a key or value block. -/
abbrev kvSlab (arg3 : Memref sig .tc .vmem S1x16x2048x64 .f32) (X_arg3 : BufTy.Contents (Elt F) arg3.view.ty)
    (k : Fin k0_t1_loop.trips) : Vec F S1x1x2048x64 .f32 :=
  View.readAt (Elt F) arg3.view (Rect.unit (s := S1x16x2048x64) (k0_off2 k) S1x1x2048x64.size (k0_off2_inb k)).toLoadRect X_arg3

/-- The tile trip `k` stores into the output block: head `k`'s output. -/
def headOut (arg2 : Memref sig .tc .vmem S1x16x64x64 .f32) (arg3 : Memref sig .tc .vmem S1x16x2048x64 .f32) (arg4 : Memref sig .tc .vmem S1x16x2048x64 .f32) (v0 : Vec F S1x64x2048 .i32) (X_arg2 : BufTy.Contents (Elt F) arg2.view.ty) (X_arg3 : BufTy.Contents (Elt F) arg3.view.ty) (X_arg4 : BufTy.Contents (Elt F) arg4.view.ty) (k : Fin k0_t1_loop.trips) : S1x1x64x64.Idx → Elt F .f32 :=
  k0_pay2 (k0_pay4 (k0_pay1 v0) (qSlab arg2 X_arg2 k) (kvSlab arg3 X_arg3 k) (kvSlab arg4 X_arg4 k))

/-- The tile trip `k` stores into the weights' block: head `k`'s attention weights. -/
def headAttn (arg2 : Memref sig .tc .vmem S1x16x64x64 .f32) (arg3 : Memref sig .tc .vmem S1x16x2048x64 .f32) (v0 : Vec F S1x64x2048 .i32) (X_arg2 : BufTy.Contents (Elt F) arg2.view.ty) (X_arg3 : BufTy.Contents (Elt F) arg3.view.ty) (k : Fin k0_t1_loop.trips) : S1x1x64x2048.Idx → Elt F .f32 :=
  k0_pay5 (k0_pay1 v0) (qSlab arg2 X_arg2 k) (kvSlab arg3 X_arg3 k)

/-- Trip `k`'s stores, whatever it finds in the two output blocks: one tile each. -/
theorem tripL_eq (𝒱 : Variants) (c : Dev nD) (bd : Option 𝒱.V) (i : grid0.Coords) (arg2 : Memref sig .tc .vmem S1x16x64x64 .f32) (harg2 : arg2.IsWhole) (arg3 : Memref sig .tc .vmem S1x16x2048x64 .f32) (harg3 : arg3.IsWhole) (arg4 : Memref sig .tc .vmem S1x16x2048x64 .f32) (harg4 : arg4.IsWhole) (arg5 : Memref sig .tc .vmem S1x64x2048 .i32) (harg5 : arg5.IsWhole) (arg6 : Memref sig .tc .vmem S1x16x64x64 .f32) (harg6 : arg6.IsWhole) (arg7 : Memref sig .tc .vmem S1x16x64x2048 .f32) (harg7 : arg7.IsWhole) (v0 : Vec F S1x64x2048 .i32) (X_arg2 : BufTy.Contents (Elt F) arg2.view.ty) (X_arg3 : BufTy.Contents (Elt F) arg3.view.ty) (X_arg4 : BufTy.Contents (Elt F) arg4.view.ty) (k : Fin k0_t1_loop.trips)
    (f6 : BufTy.Contents (Elt F) arg6.view.ty) (f7 : BufTy.Contents (Elt F) arg7.view.ty) :
    tripL_k0_t1 (F := F) 𝒱 c bd i arg2 harg2 arg3 harg3 arg4 harg4 arg5 harg5 arg6 harg6 arg7 harg7 v0 X_arg2 X_arg3 X_arg4 k f6 f7
      = ([⟨Rect.unit (k0_off1 k) S1x1x64x64.size (k0_off1_inb k), headOut arg2 arg3 arg4 v0 X_arg2 X_arg3 X_arg4 k⟩],
         [⟨Rect.unit (k0_off3 k) S1x1x64x2048.size (k0_off3_inb k), headAttn arg2 arg3 v0 X_arg2 X_arg3 k⟩]) := by
  unfold tripL_k0_t1 trip_k0_t1
  dsimp only
  unfold trip_k0_t1.sl.r
  rfl

/-- The stores of the trips before `n`, newest first: the first `n` tiles of each output block. -/
theorem pb_eq (𝒱 : Variants) (c : Dev nD) (bd : Option 𝒱.V) (i : grid0.Coords) (arg2 : Memref sig .tc .vmem S1x16x64x64 .f32) (harg2 : arg2.IsWhole) (arg3 : Memref sig .tc .vmem S1x16x2048x64 .f32) (harg3 : arg3.IsWhole) (arg4 : Memref sig .tc .vmem S1x16x2048x64 .f32) (harg4 : arg4.IsWhole) (arg5 : Memref sig .tc .vmem S1x64x2048 .i32) (harg5 : arg5.IsWhole) (arg6 : Memref sig .tc .vmem S1x16x64x64 .f32) (harg6 : arg6.IsWhole) (arg7 : Memref sig .tc .vmem S1x16x64x2048 .f32) (harg7 : arg7.IsWhole) (v0 : Vec F S1x64x2048 .i32) (X_arg2 : BufTy.Contents (Elt F) arg2.view.ty) (X_arg3 : BufTy.Contents (Elt F) arg3.view.ty) (X_arg4 : BufTy.Contents (Elt F) arg4.view.ty) (G_arg6 : BufTy.Contents (Elt F) arg6.view.ty) (G_arg7 : BufTy.Contents (Elt F) arg7.view.ty) :
    ∀ (n : ℕ) (hn : n ≤ k0_t1_loop.trips),
      pb_k0_t1 (F := F) 𝒱 c bd i arg2 harg2 arg3 harg3 arg4 harg4 arg5 harg5 arg6 harg6 arg7 harg7 v0 X_arg2 X_arg3 X_arg4 G_arg6 G_arg7 n
        = (View.tilePieces (s := S1x16x64x64) S1x1x64x64.size (fun k => k0_off1 k) k0_off1_inb
              (headOut arg2 arg3 arg4 v0 X_arg2 X_arg3 X_arg4) n hn,
           View.tilePieces (s := S1x16x64x2048) S1x1x64x2048.size (fun k => k0_off3 k) k0_off3_inb
              (headAttn arg2 arg3 v0 X_arg2 X_arg3) n hn)
  | 0, _ => rfl
  | n + 1, hn => by
    have ih := pb_eq 𝒱 c bd i arg2 harg2 arg3 harg3 arg4 harg4 arg5 harg5 arg6 harg6 arg7 harg7 v0 X_arg2 X_arg3 X_arg4 G_arg6 G_arg7 n (Nat.le_of_succ_le hn)
    rw [pb_k0_t1_succ (F := F) 𝒱 c bd i arg2 harg2 arg3 harg3 arg4 harg4 arg5 harg5 arg6 harg6 arg7 harg7 v0 X_arg2 X_arg3 X_arg4 G_arg6 G_arg7 ⟨n, hn⟩, tripL_eq, ih]
    rfl

/-- After the last trip: all sixteen tiles of each block. The trip count is spelt as the loop's bounds give it. The
    lists name the blocks' contents before the loop nowhere: each tile is a function of what the trip loads. -/
theorem pb_all (𝒱 : Variants) (c : Dev nD) (bd : Option 𝒱.V) (i : grid0.Coords) (arg2 : Memref sig .tc .vmem S1x16x64x64 .f32) (harg2 : arg2.IsWhole) (arg3 : Memref sig .tc .vmem S1x16x2048x64 .f32) (harg3 : arg3.IsWhole) (arg4 : Memref sig .tc .vmem S1x16x2048x64 .f32) (harg4 : arg4.IsWhole) (arg5 : Memref sig .tc .vmem S1x64x2048 .i32) (harg5 : arg5.IsWhole) (arg6 : Memref sig .tc .vmem S1x16x64x64 .f32) (harg6 : arg6.IsWhole) (arg7 : Memref sig .tc .vmem S1x16x64x2048 .f32) (harg7 : arg7.IsWhole) (v0 : Vec F S1x64x2048 .i32) (X_arg2 : BufTy.Contents (Elt F) arg2.view.ty) (X_arg3 : BufTy.Contents (Elt F) arg3.view.ty) (X_arg4 : BufTy.Contents (Elt F) arg4.view.ty) (G_arg6 : BufTy.Contents (Elt F) arg6.view.ty) (G_arg7 : BufTy.Contents (Elt F) arg7.view.ty) :
    pb_k0_t1 (F := F) 𝒱 c bd i arg2 harg2 arg3 harg3 arg4 harg4 arg5 harg5 arg6 harg6 arg7 harg7 v0 X_arg2 X_arg3 X_arg4 G_arg6 G_arg7 (Scf.trips k0_t1_loop.lb k0_t1_loop.ub k0_t1_loop.st)
      = (View.tilePieces (s := S1x16x64x64) S1x1x64x64.size (fun k => k0_off1 k) k0_off1_inb
            (headOut arg2 arg3 arg4 v0 X_arg2 X_arg3 X_arg4) k0_t1_loop.trips le_rfl,
         View.tilePieces (s := S1x16x64x2048) S1x1x64x2048.size (fun k => k0_off3 k) k0_off3_inb
            (headAttn arg2 arg3 v0 X_arg2 X_arg3) k0_t1_loop.trips le_rfl) :=
  pb_eq 𝒱 c bd i arg2 harg2 arg3 harg3 arg4 harg4 arg5 harg5 arg6 harg6 arg7 harg7 v0 X_arg2 X_arg3 X_arg4 G_arg6 G_arg7 k0_t1_loop.trips le_rfl

end Cert.Attention.KI

end
-- ==== Proof.Spec.lean ====
/-
  Masked scaled-dot-product attention over f32[2, 16, 2048, 64] queries, keys and values and an i32[2, 2048, 2048]
  mask, as functions of the argument arrays, index by index, on the extended reals.

  For batch `b`, head `h` and query row `i` the score row is `s j = -∞` where `mask (b, i, j) = 0` and the scaled
  contraction `(∑ d, q (b,h,i,d) · k (b,h,j,d)) · 1/8` elsewhere; the attention weights are the softmax of the row,
  `exp (s j - M) / ∑ j', exp (s j' - M)` with `M` the row's maximum, and the output row is the weights' contraction
  with the values. Two arrangements are written: the one that scales AFTER the contraction and DIVIDES by the
  denominator (`scoreRow`, `softRow`), and the one that scales the query BEFORE the contraction and MULTIPLIES by the
  denominator's reciprocal (`scoreRowK`, `softRowK`). They agree when the queries and keys are finite and every mask
  row has a nonzero entry (RowMath.lean): the first by distributivity over finite sums of reals, the second because
  the denominator is then a nonzero number, so that `x / l` and `x · (1 / l)` are both `x · l⁻¹`.
-/
import Idealize.ShloMosaic.PureOps.Ideal
import Idealize.ShloMosaic.Lib.ValueIdx

noncomputable section

namespace Cert.Attention

open Idealize.ShloMosaic Idealize.ShloMosaic.ValueIdx

/-- The queries', keys', values' and outputs' shape. -/
abbrev SQ : Shape := ⟨4, ![2, 16, 2048, 64]⟩
/-- The mask's shape. -/
abbrev SM : Shape := ⟨3, ![2, 2048, 2048]⟩
/-- The attention weights' shape. -/
abbrev SW : Shape := ⟨4, ![2, 16, 2048, 2048]⟩

/-- The scale `1/8` (the f32 word of 0.125), -/
abbrev scale : EReal := Ideal.ofBits .f32 0x3E000000#32
/-- the fill `-∞` of a masked score (the f32 word of -inf), -/
abbrev negInf : EReal := Ideal.ofBits .f32 0xFF800000#32
/-- and the numerator `1` of the reciprocal (the f32 word of 1.0). -/
abbrev one : EReal := Ideal.ofBits .f32 0x3F800000#32

/-! ## A row's softmax -/

/-- The maximum of a score row: the fold of `max` from `-∞`. -/
def rowMax (s : Fin 2048 → EReal) : EReal := (Finset.univ : Finset (Fin 2048)).fold max negInf s

/-- The shifted exponential of entry `j`, -/
def rowNum (s : Fin 2048 → EReal) (j : Fin 2048) : EReal := Ideal.exp (s j - rowMax s)

/-- the row's sum of them, -/
def rowDen (s : Fin 2048 → EReal) : EReal := ∑ j : Fin 2048, rowNum s j

/-- the softmax as a quotient, -/
def softRow (s : Fin 2048 → EReal) (j : Fin 2048) : EReal := Ideal.div (rowNum s j) (rowDen s)

/-- and as a product with the reciprocal of the sum. -/
def softRowK (s : Fin 2048 → EReal) (j : Fin 2048) : EReal := rowNum s j * Ideal.div one (rowDen s)

/-! ## The score rows -/

section

variable (q k v : SQ.Idx → EReal) (mask : SM.Idx → BitVec 32)

/-- Row `(b, h, i)` of the masked scores, the contraction scaled afterwards. -/
def scoreRow (b : Fin 2) (h : Fin 16) (i : Fin 2048) : Fin 2048 → EReal := fun j =>
  if mask (ix3 b i j) = 0#32 then negInf else (∑ d : Fin 64, q (ix4 b h i d) * k (ix4 b h j d)) * scale

/-- The same row with the query scaled before the contraction. -/
def scoreRowK (b : Fin 2) (h : Fin 16) (i : Fin 2048) : Fin 2048 → EReal := fun j =>
  if mask (ix3 b i j) = 0#32 then negInf else ∑ d : Fin 64, (q (ix4 b h i d) * scale) * k (ix4 b h j d)

/-- Row `r` of ONE head's scores inside a block: the head's 64 query rows `qh [1, 1, 64, 64]`, its keys
    `kh [1, 1, 2048, 64]` and the block `mb [1, 64, 2048]` of the mask, the query scaled before the contraction. -/
def blockScoreK (mb : (⟨3, ![1, 64, 2048]⟩ : Shape).Idx → BitVec 32) (qh : (⟨4, ![1, 1, 64, 64]⟩ : Shape).Idx → EReal)
    (kh : (⟨4, ![1, 1, 2048, 64]⟩ : Shape).Idx → EReal) (r : Fin 64) : Fin 2048 → EReal := fun j =>
  if mb (ix3 0 r j) = 0#32 then negInf else ∑ d : Fin 64, (qh (ix4 0 0 r d) * scale) * kh (ix4 0 0 j d)

/-! ## The two results, in each arrangement -/

/-- The attention weights `[b, h, i, j]`. -/
def attn : SW.Idx → EReal := fun y => softRow (scoreRow q k mask (y 0) (y 1) (y 2)) (y 3)

/-- The output `[b, h, i, d]`: row `(b, h, i)` of the weights contracted with column `d` of the values. -/
def out : SQ.Idx → EReal := fun y =>
  ∑ j : Fin 2048, softRow (scoreRow q k mask (y 0) (y 1) (y 2)) j * v (ix4 (y 0) (y 1) j (y 3))

/-- The attention weights, query scaled first and the sum's reciprocal multiplied in. -/
def attnK : SW.Idx → EReal := fun y => softRowK (scoreRowK q k mask (y 0) (y 1) (y 2)) (y 3)

/-- The output over those weights. -/
def outK : SQ.Idx → EReal := fun y =>
  ∑ j : Fin 2048, softRowK (scoreRowK q k mask (y 0) (y 1) (y 2)) j * v (ix4 (y 0) (y 1) j (y 3))

end

end Cert.Attention

end
-- ==== Proof.RowMath.lean ====
/-
  The two arrangements of masked attention (Spec.lean) agree on finite queries and keys when every mask row has a
  nonzero entry.
-/
import proofs.«426384_j44942537785819_3_alg».proof.Proof.Spec
import Mathlib.Data.EReal.Operations
import Mathlib.Data.EReal.Inv

noncomputable section

namespace Cert.Attention

open Idealize.ShloMosaic Idealize.ShloMosaic.ValueIdx

/-- The word of `-∞`: sign bit set, exponent all ones, fraction zero. -/
theorem negInf_eq : negInf = ⊥ := by
  simp [Ideal.ofBits, Ideal.ieee]
/-- The word of `0.125`: exponent field `124`, fraction zero, so `2 ^ 23 · 2 ^ (124 - 127 - 23) = 1 / 8`. -/
theorem scale_eq : scale = ((1 / 8 : ℝ) : EReal) := by
  simp [Ideal.ofBits, Ideal.ieee, -EReal.coe_mul]; norm_num
/-- The word of `1.0`: exponent field `127`, fraction zero, so `2 ^ 23 · 2 ^ (127 - 127 - 23) = 1`. -/
theorem one_eq : one = 1 := by
  simp [Ideal.ofBits, Ideal.ieee, -EReal.coe_mul]; norm_num

/-! ## A row's softmax: the denominator is not zero -/

/-- The exponential is nonnegative everywhere: `0` at `-∞`, `+∞` at `+∞`, a positive real in between. -/
theorem idealExp_nonneg (x : EReal) : 0 ≤ Ideal.exp x := by
  induction x using EReal.rec with
  | bot => simp
  | coe r => rw [Ideal.exp_coe]; exact_mod_cast (Real.exp_pos r).le
  | top => simp

/-- Every entry is at most the row's maximum. -/
theorem le_rowMax (s : Fin 2048 → EReal) (j : Fin 2048) : s j ≤ rowMax s := by
  unfold rowMax
  exact (Finset.le_fold_max (s j)).2 (Or.inr ⟨j, Finset.mem_univ j, le_rfl⟩)

/-- A row with no entry at `+∞` has its maximum below `+∞`. -/
theorem rowMax_lt_top (s : Fin 2048 → EReal) (htop : ∀ j, s j ≠ ⊤) : rowMax s < ⊤ := by
  unfold rowMax
  refine (Finset.fold_max_lt ⊤).2 ⟨?_, fun j _ => lt_top_iff_ne_top.2 (htop j)⟩
  rw [negInf_eq]; exact bot_lt_top

/-- The sum of the shifted exponentials is not zero: the entry above `-∞` lies between two reals (itself and the
    maximum), so its shifted exponential is the exponential of a real, which is positive, and no term is negative. -/
theorem rowDen_ne_zero (s : Fin 2048 → EReal) (hbot : ∃ j, s j ≠ ⊥) (htop : ∀ j, s j ≠ ⊤) : rowDen s ≠ 0 := by
  obtain ⟨j₀, hj₀⟩ := hbot
  have hMtop : rowMax s ≠ ⊤ := (rowMax_lt_top s htop).ne
  have hMbot : rowMax s ≠ ⊥ := fun h => hj₀ (le_bot_iff.1 (h ▸ le_rowMax s j₀))
  obtain ⟨a, ha⟩ : ∃ a : ℝ, s j₀ = (a : EReal) := ⟨(s j₀).toReal, (EReal.coe_toReal (htop j₀) hj₀).symm⟩
  obtain ⟨M, hM⟩ : ∃ M : ℝ, rowMax s = (M : EReal) := ⟨(rowMax s).toReal, (EReal.coe_toReal hMtop hMbot).symm⟩
  have hpos : 0 < rowNum s j₀ := by
    unfold rowNum
    rw [ha, hM, ← EReal.coe_sub, Ideal.exp_coe]
    exact_mod_cast Real.exp_pos (a - M)
  have hle : rowNum s j₀ ≤ rowDen s :=
    Finset.single_le_sum (f := rowNum s) (fun j _ => idealExp_nonneg _) (Finset.mem_univ j₀)
  exact (lt_of_lt_of_le hpos hle).ne'

/-- A row with an entry above `-∞` and none at `+∞`: the product with the reciprocal of the sum is the quotient. -/
theorem softRowK_eq (s : Fin 2048 → EReal) (hbot : ∃ j, s j ≠ ⊥) (htop : ∀ j, s j ≠ ⊤) : softRowK s = softRow s := by
  funext j
  have hden : rowDen s ≠ 0 := rowDen_ne_zero s hbot htop
  unfold softRowK softRow Ideal.div
  rw [if_neg hden, if_neg hden, one_eq, one_mul]

/-! ## The score rows: scaling before or after the contraction -/

/-- The inclusion of the reals commutes with finite sums. -/
theorem coe_real_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

section

variable (q k : SQ.Idx → EReal) (mask : SM.Idx → BitVec 32)

/-- On finite queries and keys the two score rows are the same row: entry by entry, `∑ d, (q d · c) · k d` and
    `(∑ d, q d · k d) · c` are the same real, by distributivity. -/
theorem scoreRowK_eq (hq : ∀ y, ∃ r : ℝ, q y = (r : EReal)) (hk : ∀ y, ∃ r : ℝ, k y = (r : EReal))
    (b : Fin 2) (h : Fin 16) (i : Fin 2048) : scoreRowK q k mask b h i = scoreRow q k mask b h i := by
  choose qr hqr using hq
  choose kr hkr using hk
  funext j
  unfold scoreRowK scoreRow
  split_ifs with hmask
  · rfl
  · simp only [hqr, hkr, scale_eq, ← EReal.coe_mul, coe_real_sum]
    rw [Finset.sum_mul]
    refine congrArg Real.toEReal (Finset.sum_congr rfl fun d _ => ?_)
    ring

/-- An unmasked entry of a score row on finite queries and keys is a real number. -/
theorem scoreRow_real (hq : ∀ y, ∃ r : ℝ, q y = (r : EReal)) (hk : ∀ y, ∃ r : ℝ, k y = (r : EReal))
    (b : Fin 2) (h : Fin 16) (i j : Fin 2048) (hj : mask (ix3 b i j) ≠ 0#32) :
    ∃ r : ℝ, scoreRow q k mask b h i j = (r : EReal) := by
  choose qr hqr using hq
  choose kr hkr using hk
  refine ⟨(∑ d : Fin 64, qr (ix4 b h i d) * kr (ix4 b h j d)) * (1 / 8), ?_⟩
  unfold scoreRow
  rw [if_neg hj]
  simp only [hqr, hkr, scale_eq, ← EReal.coe_mul, coe_real_sum]

/-- A score row whose mask row has a nonzero entry has an entry above `-∞`, -/
theorem scoreRow_exists_ne_bot (hq : ∀ y, ∃ r : ℝ, q y = (r : EReal)) (hk : ∀ y, ∃ r : ℝ, k y = (r : EReal))
    (hm : ∀ (b : Fin 2) (i : Fin 2048), ∃ j : Fin 2048, mask (ix3 b i j) ≠ 0#32)
    (b : Fin 2) (h : Fin 16) (i : Fin 2048) : ∃ j, scoreRow q k mask b h i j ≠ ⊥ := by
  obtain ⟨j, hj⟩ := hm b i
  obtain ⟨r, hr⟩ := scoreRow_real q k mask hq hk b h i j hj
  exact ⟨j, by rw [hr]; exact EReal.coe_ne_bot r⟩

/-- and no entry at `+∞`: a masked entry is `-∞` and an unmasked one a real. -/
theorem scoreRow_ne_top (hq : ∀ y, ∃ r : ℝ, q y = (r : EReal)) (hk : ∀ y, ∃ r : ℝ, k y = (r : EReal))
    (b : Fin 2) (h : Fin 16) (i j : Fin 2048) : scoreRow q k mask b h i j ≠ ⊤ := by
  by_cases hj : mask (ix3 b i j) = 0#32
  · unfold scoreRow
    rw [if_pos hj, negInf_eq]
    exact bot_ne_top
  · obtain ⟨r, hr⟩ := scoreRow_real q k mask hq hk b h i j hj
    rw [hr]; exact EReal.coe_ne_top r

/-- The weights' rows in the two arrangements agree. -/
theorem softRowK_scoreRowK (hq : ∀ y, ∃ r : ℝ, q y = (r : EReal)) (hk : ∀ y, ∃ r : ℝ, k y = (r : EReal))
    (hm : ∀ (b : Fin 2) (i : Fin 2048), ∃ j : Fin 2048, mask (ix3 b i j) ≠ 0#32)
    (b : Fin 2) (h : Fin 16) (i : Fin 2048) :
    softRowK (scoreRowK q k mask b h i) = softRow (scoreRow q k mask b h i) := by
  rw [scoreRowK_eq q k mask hq hk b h i]
  exact softRowK_eq _ (scoreRow_exists_ne_bot q k mask hq hk hm b h i) (scoreRow_ne_top q k mask hq hk b h i)

end

theorem attnK_eq_attn (q k : SQ.Idx → EReal) (mask : SM.Idx → BitVec 32)
    (hq : ∀ y, ∃ r : ℝ, q y = (r : EReal)) (hk : ∀ y, ∃ r : ℝ, k y = (r : EReal))
    (hm : ∀ (b : Fin 2) (i : Fin 2048), ∃ j : Fin 2048, mask (ix3 b i j) ≠ 0#32) :
    attnK q k mask = attn q k mask := by
  funext y
  have hrow := softRowK_scoreRowK q k mask hq hk hm (y 0) (y 1) (y 2)
  show softRowK (scoreRowK q k mask (y 0) (y 1) (y 2)) (y 3) = softRow (scoreRow q k mask (y 0) (y 1) (y 2)) (y 3)
  rw [hrow]

theorem outK_eq_out (q k v : SQ.Idx → EReal) (mask : SM.Idx → BitVec 32)
    (hq : ∀ y, ∃ r : ℝ, q y = (r : EReal)) (hk : ∀ y, ∃ r : ℝ, k y = (r : EReal))
    (hm : ∀ (b : Fin 2) (i : Fin 2048), ∃ j : Fin 2048, mask (ix3 b i j) ≠ 0#32) :
    outK q k v mask = out q k v mask := by
  funext y
  have hrow := softRowK_scoreRowK q k mask hq hk hm (y 0) (y 1) (y 2)
  show (∑ j : Fin 2048, softRowK (scoreRowK q k mask (y 0) (y 1) (y 2)) j * v (ix4 (y 0) (y 1) j (y 3)))
      = ∑ j : Fin 2048, softRow (scoreRow q k mask (y 0) (y 1) (y 2)) j * v (ix4 (y 0) (y 1) j (y 3))
  rw [hrow]

end Cert.Attention

end
-- ==== Proof.PreDecode.lean ====
/-
  What the precondition says of the arguments: the queries and the keys are finite, and every row of the mask has a
  nonzero entry.

  The printed predicate is a conjunction of four `i1` scalars. The first three are `all (|x| < +∞)` over the queries,
  the keys and the values: a reduce by `and` from 1 that comes out 1 had a 1 at every index, and `|x| = max x (-x)`
  is `+∞` at both infinities, so `|x| < +∞` leaves the reals. The fourth is `all (any (mask ≠ 0))`: the outer reduce
  by `and` gives a 1 at every row `(b, i)`; the inner reduce by `or` starts from 0, so a 1 at the row came from an
  index `y` that drops to `(b, i)` and carries a 1, that is `y = (b, i, j)` with `mask y ≠ 0`.
-/
import proofs.«426384_j44942537785819_3_alg».proof.Pre_finite_inputs
import proofs.«426384_j44942537785819_3_alg».proof.Proof.Spec
import Idealize.ShloMosaic.Lib.ReduceAll
import Idealize.ShloMosaic.PureOps.Ideal.Laws

noncomputable section

namespace Cert.Attention.Pre

open Idealize.ShloMosaic Idealize.ShloMosaic.ValueIdx

/-! ## Reading a comparison back -/

/-- The f32 word `0x7F800000` denotes `+∞`. -/
theorem ofBits_inf : Ideal.ofBits .f32 0x7F800000#32 = (⊤ : EReal) := by simp [Ideal.ofBits, Ideal.ieee]

/-- An extended real whose absolute value `max x (-x)` is below `+∞` is a real: at `-∞` and at `+∞` the
    absolute value is `+∞` itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- An integer `≠` comparison that came out 1 compared two different words. -/
theorem ne_of_cmpi_ne {w : Nat} (x y : BitVec w) (h : IntOp.cmpi .ne x y = 1#1) : x ≠ y := by
  rintro rfl
  simp [IntOp.cmpi] at h

/-! ## A reduce by `or` that came out 1 -/

/-- A left fold by `or` over `i1` words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A `stablehlo.reduce` by `or` that is 1 at `j` started from a 1 or had a 1 at an operand index that reduces into `j`. -/
theorem reduce_ori_eq_one {s t u : Shape} {axes : List (Fin s.rank)} (x : s.Idx → BitVec 1) (init : u.Idx → BitVec 1)
    (h : s.ReducesTo axes t) (hu : 0 < u.numel) (j : t.Idx) (e : Host.reduce IntOp.ori x init h hu j = 1#1) :
    init (Shape.Idx.first hu) = 1#1 ∨ ∃ i : s.Idx, h.drop i = j ∧ x i = 1#1 := by
  rw [Host.reduce_eq_foldl] at e
  rcases foldl_ori_eq_one x _ _ e with h1 | ⟨i, hi, hx⟩
  · exact Or.inl h1
  · rw [List.mem_filter] at hi
    exact Or.inr ⟨i, by simpa using hi.2, hx⟩

/-! ## The precondition, decoded -/

/-- The rank-zero shape has one index. -/
instance scalarIdx_subsingleton : Subsingleton Cert.Pre_finite_inputs.S_.Idx := ⟨fun a b => funext fun d => d.elim0⟩

/-- A rank-3 index whose first two coordinates are `b` and `i` is `ix3 b i` of its third. -/
theorem eq_ix3_of {n0 n1 n2 : Nat} (y : (⟨3, ![n0, n1, n2]⟩ : Shape).Idx) (b : Fin n0) (i : Fin n1)
    (hb : ((y 0 : Fin n0) : Nat) = b) (hi : ((y 1 : Fin n1) : Nat) = i) : y = ix3 b i (y 2) := by
  funext d
  match d with
  | ⟨0, _⟩ => exact Fin.ext hb
  | ⟨1, _⟩ => exact Fin.ext hi
  | ⟨2, _⟩ => rfl

theorem of_pre [Cert.Pre_finite_inputs.Facts] (a0 a1 a2 : SQ.Idx → EReal) (a3 : SM.Idx → BitVec 32)
    (h : Cert.Pre_finite_inputs.fn (F := Ideal) a0 a1 a2 a3 = fun _ => 1#1) :
    (∀ y, ∃ r : ℝ, a0 y = (r : EReal)) ∧ (∀ y, ∃ r : ℝ, a1 y = (r : EReal))
      ∧ ∀ (b : Fin 2) (i : Fin 2048), ∃ j : Fin 2048, a3 (ix3 b i j) ≠ 0#32 := by
  have h0 := congrFun h ValueIdx.ix0
  dsimp only [Cert.Pre_finite_inputs.fn, Cert.Pre_finite_inputs.fn_part1] at h0
  -- the four conjuncts of the printed `and`
  obtain ⟨h123, hm⟩ := IntOp.andi_eq_one.1 h0
  obtain ⟨h12, _⟩ := IntOp.andi_eq_one.1 h123
  obtain ⟨hq, hk⟩ := IntOp.andi_eq_one.1 h12
  refine ⟨fun y => ?_, fun y => ?_, fun b i => ?_⟩
  · -- every query entry has `|x| < +∞`
    exact real_of_abs_lt_inf (a0 y) (Host.reduce_andi_all _ _ _ _ _ hq y)
  · -- and every key entry
    exact real_of_abs_lt_inf (a1 y) (Host.reduce_andi_all _ _ _ _ _ hk y)
  · -- row `(b, i)` of the `any` is 1, and it started from 0: some entry of the row compares `≠ 0`
    have hR : Cert.Pre_finite_inputs.S2x2048x2048.ReducesTo [2] Cert.Pre_finite_inputs.S2x2048 :=
      Cert.Pre_finite_inputs.Facts.reducesTo_S2x2048x2048_S2x2048_d2
    have hrow := Host.reduce_andi_all _ _ _ _ _ hm (ix2 b i)
    rcases reduce_ori_eq_one _ _ hR _ _ hrow with hinit | ⟨y, hy, hne⟩
    · have h01 : (0#1 : BitVec 1) = 1#1 := hinit
      exact absurd h01 (by decide)
    · -- the index found has the row's first two coordinates
      have hb := Shape.ReducesTo.drop_apply_val_of_eq hR y ⟨0, by decide⟩ ⟨0, by decide⟩
      have hi := Shape.ReducesTo.drop_apply_val_of_eq hR y ⟨1, by decide⟩ ⟨1, by decide⟩
      rw [hy] at hb hi
      have hy3 : y = ix3 b i (y 2) := eq_ix3_of y b i hb.symm hi.symm
      have hne' : a3 y ≠ 0#32 := ne_of_cmpi_ne (a3 y) 0#32 hne
      exact ⟨y 2, fun hz => hne' ((congrArg a3 hy3).trans hz)⟩

end Cert.Attention.Pre

end
-- ==== Proof.RefSide.lean ====
/-
  The reference's two results, read one operation at a time, are the attention weights and the output of Spec.lean.

  For a fixed batch `b`, head `h` and query row `i` the reference's masked, scaled scores along the key axis are the
  row `scoreRow q k mask b h i`. Everything after the scores is a function of that one row: the maximum over the key
  axis is the fold of `max` from `-∞` (and the further maximum with `-∞` changes nothing, `-∞` being the least
  extended real), the shifted exponentials are the row's numerators, their sum from `0` is the row's denominator,
  and the quotient is the row's softmax. The output contracts that softmax with the values along the key axis.
-/
import proofs.«426384_j44942537785819_3_alg».proof.Proof.Gen.ReferenceIdeal.Read
import proofs.«426384_j44942537785819_3_alg».proof.Proof.Spec
import Idealize.ShloMosaic.PureOps.Ideal.Laws

noncomputable section

namespace Cert.Attention.Ref

open Cert.ReferenceIdeal Cert.ReferenceIdeal.Gen Cert.ReferenceIdeal.Read Idealize.ShloMosaic Idealize.ShloMosaic.ValueIdx

/-! ## The word of `-∞` -/

/-- The f32 word of `-∞` denotes the least extended real. -/
private theorem negInf_eq_bot : Ideal.ofBits .f32 0xFF800000#32 = (⊥ : EReal) := by
  simp [Ideal.ofBits, Ideal.ieee]

/-- An equality comparison of two words gives the bit `1` exactly when the words are equal. -/
private theorem cmpi_eq_one_iff {a b : BitVec 32} : IntOp.cmpi .eq a b = 1#1 ↔ a = b := by
  have hb : ∀ c : Bool, BitVec.ofBool c = 1#1 ↔ c = true := fun c => by cases c <;> decide
  exact (hb (a == b)).trans beq_iff_eq

/-! ## The composed index functions, by coordinates -/

/-- The mask is read at (batch, query row, key row): the head axis is broadcast. -/
private theorem mask_idx (b : Fin 2) (h : Fin 16) (i j : Fin 2048) :
    idx_main_v3 (idx_main_call0_v1 (ix4 b h i j)) = ix3 b i j :=
  funext fun a => Fin.ext (by match a with | ⟨0, _⟩ => rfl | ⟨1, _⟩ => rfl | ⟨2, _⟩ => rfl)

/-- The first contraction reads the queries at (b, h, i, d) … -/
private theorem lidx0 (b : Fin 2) (h : Fin 16) (i j : Fin 2048) (d : Fin 64) :
    lidx_main_v0 (ix4 b h i j) d = ix4 b h i d :=
  funext fun a => Fin.ext (by match a with | ⟨0, _⟩ => rfl | ⟨1, _⟩ => rfl | ⟨2, _⟩ => rfl | ⟨3, _⟩ => rfl)

/-- … and the keys at (b, h, j, d). -/
private theorem ridx0 (b : Fin 2) (h : Fin 16) (i j : Fin 2048) (d : Fin 64) :
    ridx_main_v0 (ix4 b h i j) d = ix4 b h j d :=
  funext fun a => Fin.ext (by match a with | ⟨0, _⟩ => rfl | ⟨1, _⟩ => rfl | ⟨2, _⟩ => rfl | ⟨3, _⟩ => rfl)

/-- The row maximum is broadcast back along the key axis: entry (b, h, i, j) reads it at (b, h, i). -/
private theorem max_idx (b : Fin 2) (h : Fin 16) (i j : Fin 2048) :
    idx_main_v10 (idx_main_v11 (ix4 b h i j)) = ix3 b h i :=
  funext fun a => Fin.ext (by match a with | ⟨0, _⟩ => rfl | ⟨1, _⟩ => rfl | ⟨2, _⟩ => rfl)

/-- The sum over the key axis at (b, h, i) runs over the entries (b, h, i, k). -/
private theorem sum_idx (b : Fin 2) (h : Fin 16) (i k : Fin 2048) :
    idx_main_v14 (ix3 b h i) k = ix4 b h i k :=
  funext fun a => Fin.ext (by match a with | ⟨0, _⟩ => rfl | ⟨1, _⟩ => rfl | ⟨2, _⟩ => rfl | ⟨3, _⟩ => rfl)

/-- The row sum is broadcast back along the key axis likewise. -/
private theorem den_idx (b : Fin 2) (h : Fin 16) (i j : Fin 2048) :
    idx_main_v15 (idx_main_v16 (ix4 b h i j)) = ix3 b h i :=
  funext fun a => Fin.ext (by match a with | ⟨0, _⟩ => rfl | ⟨1, _⟩ => rfl | ⟨2, _⟩ => rfl)

/-- The second contraction reads the weights at (b, h, i, k) … -/
private theorem lidx18 (b : Fin 2) (h : Fin 16) (i : Fin 2048) (d : Fin 64) (k : Fin 2048) :
    lidx_main_v18 (ix4 b h i d) k = ix4 b h i k :=
  funext fun a => Fin.ext (by match a with | ⟨0, _⟩ => rfl | ⟨1, _⟩ => rfl | ⟨2, _⟩ => rfl | ⟨3, _⟩ => rfl)

/-- … and the values at (b, h, k, d). -/
private theorem ridx18 (b : Fin 2) (h : Fin 16) (i : Fin 2048) (d : Fin 64) (k : Fin 2048) :
    ridx_main_v18 (ix4 b h i d) k = ix4 b h k d :=
  funext fun a => Fin.ext (by match a with | ⟨0, _⟩ => rfl | ⟨1, _⟩ => rfl | ⟨2, _⟩ => rfl | ⟨3, _⟩ => rfl)

/-- Inserting the key coordinate `j` into (b, h, i) on the reduced axis gives (b, h, i, j). -/
private theorem lift_row (hr : Shape.Reduces S2x16x2048x2048 [3] S2x16x2048) (b : Fin 2) (h : Fin 16) (i j : Fin 2048) :
    hr.lift (ix3 b h i) j = ix4 b h i j :=
  funext fun a => Fin.ext (by match a with | ⟨0, _⟩ => rfl | ⟨1, _⟩ => rfl | ⟨2, _⟩ => rfl | ⟨3, _⟩ => rfl)

/-! ## One row of the reference -/

section Row

variable (x0 x1 : (⟨S2x16x2048x64, .f32⟩ : BufTy).Contents (Elt Ideal)) (x3 : (⟨S2x2048x2048, .i32⟩ : BufTy).Contents (Elt Ideal))

/-- The scaled contraction at (b, h, i, j): the sum over `d` of query times key, times 1/8. -/
private theorem scaled_apply (b : Fin 2) (h : Fin 16) (i j : Fin 2048) :
    val_main_v2 (F := Ideal) x0 x1 (ix4 b h i j)
      = (∑ d : Fin 64, x0 (ix4 b h i d) * x1 (ix4 b h j d)) * Cert.Attention.scale := by
  rw [val_main_v2_apply, val_main_v0_apply, val_main_v1_apply, val_main_cst_apply, Ideal.mulf_def, Ideal.ofBits_def]
  refine congrArg (· * Cert.Attention.scale) (Finset.sum_congr rfl fun d _ => ?_)
  rw [lidx0, ridx0]

/-- The masked score at (b, h, i, j) is entry `j` of the score row (b, h, i): `-∞` where the mask word is zero, the
    scaled contraction elsewhere. -/
private theorem score_apply (b : Fin 2) (h : Fin 16) (i j : Fin 2048) :
    val_main_v6 (F := Ideal) x0 x1 x3 (ix4 b h i j) = Cert.Attention.scoreRow x0 x1 x3 b h i j := by
  show _ = if x3 (ix3 b i j) = 0#32 then Cert.Attention.negInf
    else (∑ d : Fin 64, x0 (ix4 b h i d) * x1 (ix4 b h j d)) * Cert.Attention.scale
  rw [val_main_v6_apply, val_main_call0_v1_apply, val_main_v5_apply, val_main_v3_apply, val_main_v4_apply,
    val_main_c_apply, val_main_call0_v2_apply, val_main_call0_v0_apply, val_main_cst_0_apply, Ideal.ofBits_def,
    scaled_apply, mask_idx]
  by_cases hm : x3 (ix3 b i j) = 0#32
  · have hc : IntOp.cmpi .eq (x3 (ix3 b i j)) 0#32 = 1#1 := cmpi_eq_one_iff.mpr hm
    rw [if_pos hm, hc, select_one]
  · have hc : IntOp.cmpi .eq (x3 (ix3 b i j)) 0#32 = 0#1 :=
      eq_zero_of_ne_one fun hc => hm (cmpi_eq_one_iff.mp hc)
    rw [if_neg hm, hc, select_zero]

/-- The reference's maximum over the key axis at (b, h, i) is the row's maximum. -/
private theorem rowMax_apply (b : Fin 2) (h : Fin 16) (i : Fin 2048) :
    val_main_v9 (F := Ideal) x0 x1 x3 (ix3 b h i) = Cert.Attention.rowMax (Cert.Attention.scoreRow x0 x1 x3 b h i) := by
  have hr : Shape.Reduces S2x16x2048x2048 [3] S2x16x2048 := by decide
  -- the row of scores along the reduced axis
  have hrow : (val_main_v6 (F := Ideal) x0 x1 x3 ∘ hr.lift (ix3 b h i)) = Cert.Attention.scoreRow x0 x1 x3 b h i :=
    funext fun (j : Fin 2048) =>
      (congrArg (val_main_v6 (F := Ideal) x0 x1 x3) (lift_row hr b h i j)).trans (score_apply x0 x1 x3 b h i j)
  -- the maximum with `-∞` is the other operand
  rw [val_main_v9_apply, val_main_v8_apply, val_main_cst_2_apply, Ideal.maximumf_def, Ideal.ofBits_def, negInf_eq_bot,
    max_eq_right bot_le]
  -- the reduction over the key axis is the fold of `max` from `-∞` over the row
  unfold val_main_v7
  refine (Host.reduce_eq_fold_single (FloatOps.maximumf (F := Ideal) (φ := .f32)) (val_main_v6 (F := Ideal) x0 x1 x3)
    (val_main_cst_1 (F := Ideal)) reducesTo_S2x16x2048x2048_S2x16x2048_d3 hr h_S_ (ix3 b h i)).trans ?_
  rw [hrow]
  rfl

/-- The reference's shifted exponential at (b, h, i, j) is the row's numerator `j`. -/
private theorem rowNum_apply (b : Fin 2) (h : Fin 16) (i j : Fin 2048) :
    val_main_v13 (F := Ideal) x0 x1 x3 (ix4 b h i j) = Cert.Attention.rowNum (Cert.Attention.scoreRow x0 x1 x3 b h i) j := by
  show _ = Ideal.exp (Cert.Attention.scoreRow x0 x1 x3 b h i j - Cert.Attention.rowMax (Cert.Attention.scoreRow x0 x1 x3 b h i))
  rw [val_main_v13_apply, val_main_v12_apply, val_main_v11_apply, val_main_v10_apply, max_idx, rowMax_apply, score_apply,
    Ideal.hostUnary_exp_def, Ideal.subf_def]

/-- The reference's sum over the key axis at (b, h, i) is the row's denominator. -/
private theorem rowDen_apply (b : Fin 2) (h : Fin 16) (i : Fin 2048) :
    val_main_v14 (F := Ideal) x0 x1 x3 (ix3 b h i) = Cert.Attention.rowDen (Cert.Attention.scoreRow x0 x1 x3 b h i) := by
  show _ = ∑ j : Fin 2048, Cert.Attention.rowNum (Cert.Attention.scoreRow x0 x1 x3 b h i) j
  rw [val_main_v14_apply, val_main_cst_3_apply, Ideal.ofBits_def, Ideal.ofBits_zero_f32, zero_add]
  refine Finset.sum_congr rfl fun k _ => ?_
  rw [sum_idx, rowNum_apply]

/-- The reference's quotient at (b, h, i, j) is the row's softmax at `j`. -/
private theorem softRow_apply (b : Fin 2) (h : Fin 16) (i j : Fin 2048) :
    val_main_v17 (F := Ideal) x0 x1 x3 (ix4 b h i j) = Cert.Attention.softRow (Cert.Attention.scoreRow x0 x1 x3 b h i) j := by
  show _ = Ideal.div (Cert.Attention.rowNum (Cert.Attention.scoreRow x0 x1 x3 b h i) j)
    (Cert.Attention.rowDen (Cert.Attention.scoreRow x0 x1 x3 b h i))
  rw [val_main_v17_apply, val_main_v16_apply, val_main_v15_apply, den_idx, rowDen_apply, rowNum_apply, Ideal.hostDivf_def]

end Row

/-! ## The two results -/

theorem ref_attn (x0 x1 : (⟨S2x16x2048x64, .f32⟩ : BufTy).Contents (Elt Ideal)) (x3 : (⟨S2x2048x2048, .i32⟩ : BufTy).Contents (Elt Ideal)) :
    val_main_v17 (F := Ideal) x0 x1 x3 = Cert.Attention.attn x0 x1 x3 := by
  funext y
  obtain ⟨b, h, i, j, rfl⟩ : ∃ b h i j, y = ix4 b h i j := ⟨_, _, _, _, eq_ix4 y⟩
  exact softRow_apply x0 x1 x3 b h i j

theorem ref_out (x0 x1 x2 : (⟨S2x16x2048x64, .f32⟩ : BufTy).Contents (Elt Ideal)) (x3 : (⟨S2x2048x2048, .i32⟩ : BufTy).Contents (Elt Ideal)) :
    val_main_v18 (F := Ideal) x0 x1 x2 x3 = Cert.Attention.out x0 x1 x2 x3 := by
  funext y
  obtain ⟨b, h, i, d, rfl⟩ : ∃ b h i d, y = ix4 b h i d := ⟨_, _, _, _, eq_ix4 y⟩
  show _ = ∑ j : Fin 2048, Cert.Attention.softRow (Cert.Attention.scoreRow x0 x1 x3 b h i) j * x2 (ix4 b h j d)
  rw [val_main_v18_apply]
  refine Finset.sum_congr rfl fun k _ => ?_
  rw [lidx18, ridx18, softRow_apply]

end Cert.Attention.Ref

end
-- ==== Proof.TileRead.lean ====
/-
  Sixteen equal tiles along the head axis, read at an index: entry `(u, h, r, j)` of a block written by the list of
  the heads' tiles is head `h`'s tile at `(0, 0, r, j)`; the other heads' tiles miss it on the head axis.
-/
import proofs.«426384_j44942537785819_3_alg».proof.Proof.TripPieces
import Idealize.ShloMosaic.Lib.ValueIdx
import Idealize.ShloMosaic.Lib.ValueLayout

set_option maxRecDepth 16384

noncomputable section

namespace Cert.Attention.KI

open Cert.KernelIdeal Cert.KernelIdeal.Gen
open Idealize.ShloMosaic Idealize.ShloMosaic.ValueIdx

variable {F : FTy → Type} [FloatOps F]

/-- Head `h` as a trip of the loop. -/
abbrev tripOf (h : Fin 16) : Fin k0_t1_loop.trips := ⟨h.val, by rw [trips_eq]; exact h.isLt⟩

/-- The output block `[1, 16, 64, 64]` after the sixteen heads' tiles, at `(u, h, r, d)`. -/
theorem read_tiles4 (v : View sig .tc .vmem S1x16x64x64 .f32) (f : v.ty.Contents (Elt F))
    (P : Fin k0_t1_loop.trips → S1x1x64x64.Idx → Elt F .f32) (u : Fin 1) (h : Fin 16) (r d : Fin 64) :
    v.read (Elt F) (v.writes (Elt F) f (View.tilePieces (s := S1x16x64x64) S1x1x64x64.size (fun k => k0_off1 k) k0_off1_inb P
      k0_t1_loop.trips le_rfl)) (ix4 u h r d) = P (tripOf h) (ix4 0 0 r d) := by
  refine View.read_tilePieces v f S1x1x64x64.size (fun k => k0_off1 k) k0_off1_inb P k0_t1_loop.trips le_rfl (ix4 u h r d)
    (tripOf h) (by show h.val < k0_t1_loop.trips; rw [trips_eq]; exact h.isLt) (ix4 0 0 r d) ?_ (1 : Fin 4) ?_
  · intro a
    show ((ix4 u h r d : S1x16x64x64.Idx) a).val = k0_off1 (tripOf h) a + ((ix4 (0 : Fin 1) (0 : Fin 1) r d : S1x1x64x64.Idx) a).val
    rw [k0_off1_eq]
    have hu : u.val = 0 := by omega
    match a with
    | ⟨0, _⟩ => show u.val = 0 + 0; omega
    | ⟨1, _⟩ => show h.val = h.val + 0; omega
    | ⟨2, _⟩ => show r.val = 0 + r.val; omega
    | ⟨3, _⟩ => show d.val = 0 + d.val; omega
  · intro k' hk'
    show ((ix4 u h r d : S1x16x64x64.Idx) (1 : Fin 4)).val < k0_off1 k' (1 : Fin 4) ∨ k0_off1 k' (1 : Fin 4) + S1x1x64x64.size (1 : Fin 4) ≤ ((ix4 u h r d : S1x16x64x64.Idx) (1 : Fin 4)).val
    rw [k0_off1_eq]
    have hne : k'.val ≠ h.val := fun e => hk' (Fin.ext e)
    show h.val < k'.val ∨ k'.val + 1 ≤ h.val
    omega

/-- The weights' block `[1, 16, 64, 2048]` after the sixteen heads' tiles, at `(u, h, r, j)`. -/
theorem read_tiles5 (v : View sig .tc .vmem S1x16x64x2048 .f32) (f : v.ty.Contents (Elt F))
    (P : Fin k0_t1_loop.trips → S1x1x64x2048.Idx → Elt F .f32) (u : Fin 1) (h : Fin 16) (r : Fin 64) (j : Fin 2048) :
    v.read (Elt F) (v.writes (Elt F) f (View.tilePieces (s := S1x16x64x2048) S1x1x64x2048.size (fun k => k0_off3 k) k0_off3_inb P
      k0_t1_loop.trips le_rfl)) (ix4 u h r j) = P (tripOf h) (ix4 0 0 r j) := by
  refine View.read_tilePieces v f S1x1x64x2048.size (fun k => k0_off3 k) k0_off3_inb P k0_t1_loop.trips le_rfl (ix4 u h r j)
    (tripOf h) (by show h.val < k0_t1_loop.trips; rw [trips_eq]; exact h.isLt) (ix4 0 0 r j) ?_ (1 : Fin 4) ?_
  · intro a
    show ((ix4 u h r j : S1x16x64x2048.Idx) a).val = k0_off3 (tripOf h) a + ((ix4 (0 : Fin 1) (0 : Fin 1) r j : S1x1x64x2048.Idx) a).val
    rw [k0_off3_eq]
    have hu : u.val = 0 := by omega
    match a with
    | ⟨0, _⟩ => show u.val = 0 + 0; omega
    | ⟨1, _⟩ => show h.val = h.val + 0; omega
    | ⟨2, _⟩ => show r.val = 0 + r.val; omega
    | ⟨3, _⟩ => show j.val = 0 + j.val; omega
  · intro k' hk'
    show ((ix4 u h r j : S1x16x64x2048.Idx) (1 : Fin 4)).val < k0_off3 k' (1 : Fin 4) ∨ k0_off3 k' (1 : Fin 4) + S1x1x64x2048.size (1 : Fin 4) ≤ ((ix4 u h r j : S1x16x64x2048.Idx) (1 : Fin 4)).val
    rw [k0_off3_eq]
    have hne : k'.val ≠ h.val := fun e => hk' (Fin.ext e)
    show h.val < k'.val ∨ k'.val + 1 ≤ h.val
    omega

/-- Head `k`'s weights' tile is the head's weights `[1, 64, 2048]` with a unit axis in front. -/
theorem headAttn_apply (arg2 : Memref sig .tc .vmem S1x16x64x64 .f32) (arg3 : Memref sig .tc .vmem S1x16x2048x64 .f32)
    (v0 : Vec F S1x64x2048 .i32) (X_arg2 : BufTy.Contents (Elt F) arg2.view.ty) (X_arg3 : BufTy.Contents (Elt F) arg3.view.ty)
    (k : Fin k0_t1_loop.trips) (r : Fin 64) (j : Fin 2048) :
    headAttn arg2 arg3 v0 X_arg2 X_arg3 k (ix4 0 0 r j)
      = k0_pay3 (k0_pay1 v0) (qSlab arg2 X_arg2 k) (kvSlab arg3 X_arg3 k) (ix3 0 r j) := by
  unfold headAttn k0_pay5
  exact shapeCast_abc_1abc_apply _ _ 0 0 r j

/-- Head `k`'s output tile is the head's output `[1, 64, 64]` with a unit axis in front. -/
theorem headOut_apply (arg2 : Memref sig .tc .vmem S1x16x64x64 .f32) (arg3 arg4 : Memref sig .tc .vmem S1x16x2048x64 .f32)
    (v0 : Vec F S1x64x2048 .i32) (X_arg2 : BufTy.Contents (Elt F) arg2.view.ty) (X_arg3 : BufTy.Contents (Elt F) arg3.view.ty)
    (X_arg4 : BufTy.Contents (Elt F) arg4.view.ty) (k : Fin k0_t1_loop.trips) (r d : Fin 64) :
    headOut arg2 arg3 arg4 v0 X_arg2 X_arg3 X_arg4 k (ix4 0 0 r d)
      = k0_pay4 (k0_pay1 v0) (qSlab arg2 X_arg2 k) (kvSlab arg3 X_arg3 k) (kvSlab arg4 X_arg4 k) (ix3 0 r d) := by
  unfold headOut k0_pay2
  exact shapeCast_abc_1abc_apply _ _ 0 0 r d

end Cert.Attention.KI

end
-- ==== Proof.GridFacts.lean ====
/-
  The six windows' index maps over the grid of 2 × 32 points, decided once: at point `t` the output blocks sit at batch
  `b` and query tile `qi` (block index `(b, 0, qi, 0)`), the query block at the same place, the key and value blocks at
  `(b, 0, 0, 0)`, the mask's block at `(b, qi, 0)`; and every `(b, qi)` is some point's.
-/
import proofs.«426384_j44942537785819_3_alg».proof.Proof.Gen.KernelIdeal

set_option maxRecDepth 16384

noncomputable section

namespace Cert.Attention.KI

open Cert.KernelIdeal Cert.KernelIdeal.Gen Idealize.ShloMosaic

/-- Where each window's block sits at a point, relative to the weights' block. -/
theorem idx_facts : ∀ t : Fin cfg0.N,
    win0_5.index t (0 : Fin 4) ≤ 1 ∧ win0_5.index t (1 : Fin 4) = 0 ∧ win0_5.index t (2 : Fin 4) ≤ 31 ∧ win0_5.index t (3 : Fin 4) = 0
    ∧ win0_4.index t (0 : Fin 4) = win0_5.index t (0 : Fin 4) ∧ win0_4.index t (1 : Fin 4) = 0
    ∧ win0_4.index t (2 : Fin 4) = win0_5.index t (2 : Fin 4) ∧ win0_4.index t (3 : Fin 4) = 0
    ∧ win0_0.index t (0 : Fin 4) = win0_5.index t (0 : Fin 4) ∧ win0_0.index t (1 : Fin 4) = 0
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = 0
    ∧ win0_1.index t (2 : Fin 4) = 0 ∧ win0_1.index t (3 : Fin 4) = 0
    ∧ win0_2.index t (0 : Fin 4) = win0_5.index t (0 : Fin 4) ∧ win0_2.index t (1 : Fin 4) = 0
    ∧ win0_2.index t (2 : Fin 4) = 0 ∧ win0_2.index t (3 : Fin 4) = 0
    ∧ win0_3.index t (0 : Fin 3) = win0_5.index t (0 : Fin 4) ∧ win0_3.index t (1 : Fin 3) = win0_5.index t (2 : Fin 4)
    ∧ win0_3.index t (2 : Fin 3) = 0 :=
  (by decide +kernel : ∀ t : Fin grid0.N, _)

/-- Every batch and query tile is some point's. -/
theorem idx_onto : ∀ (b : Fin 2) (qi : Fin 32), ∃ t : Fin cfg0.N,
    win0_5.index t (0 : Fin 4) = b.val ∧ win0_5.index t (2 : Fin 4) = qi.val :=
  (by decide +kernel : ∀ (b : Fin 2) (qi : Fin 32), ∃ t : Fin grid0.N,
    win0_5.index t (0 : Fin 4) = b.val ∧ win0_5.index t (2 : Fin 4) = qi.val)

end Cert.Attention.KI

end
-- ==== Proof.BlockRows.lean ====
/-
  From a block to the arrays. At grid point `t` the blocks sit at batch `b` and query tile `qi`; head `k`'s slab of the
  query block holds rows `qi · 64 + r` of head `k` of the query array, its slab of the key or value block holds head `k`
  of batch `b` whole, and the mask's block holds rows `qi · 64 + r` of batch `b`. So the score row `r` of head `k` inside
  the block is row `(b, k, qi · 64 + r)` of the whole arrays' scores.
-/
import proofs.«426384_j44942537785819_3_alg».proof.Proof.GridFacts
import proofs.«426384_j44942537785819_3_alg».proof.Proof.Spec
import Idealize.ShloMosaic.Lib.Pipeline.Value

set_option maxRecDepth 16384

noncomputable section

namespace Cert.Attention.KI

open Cert.KernelIdeal Cert.KernelIdeal.Gen Idealize.ShloMosaic Idealize.ShloMosaic.ValueIdx

variable (A0 A1 A2 : S2x16x2048x64.Idx → EReal) (A3 : S2x2048x2048.Idx → BitVec 32)

/-- The query, key, value and mask blocks at point `t`, read off the arrays, at their literal types. -/
abbrev qBlk (t : Fin cfg0.N) : Vec Ideal S1x16x64x64 .f32 := ((cfg0.win 0).blk t).view.read (Elt Ideal) A0
abbrev kBlk (t : Fin cfg0.N) : Vec Ideal S1x16x2048x64 .f32 := ((cfg0.win 1).blk t).view.read (Elt Ideal) A1
abbrev vBlk (t : Fin cfg0.N) : Vec Ideal S1x16x2048x64 .f32 := ((cfg0.win 2).blk t).view.read (Elt Ideal) A2
abbrev mBlk (t : Fin cfg0.N) : Vec Ideal S1x64x2048 .i32 := ((cfg0.win 3).blk t).view.read (Elt Ideal) A3

/-- Head `k`'s slab of a query block and of a key or value block. -/
abbrev slabQ (x0 : Vec Ideal S1x16x64x64 .f32) (k : Fin k0_t1_loop.trips) : Vec Ideal S1x1x64x64 .f32 :=
  View.ld x0 (Rect.unit (s := S1x16x64x64) (k0_off1 k) S1x1x64x64.size (k0_off1_inb k))
abbrev slabKV (x1 : Vec Ideal S1x16x2048x64 .f32) (k : Fin k0_t1_loop.trips) : Vec Ideal S1x1x2048x64 .f32 :=
  View.ld x1 (Rect.unit (s := S1x16x2048x64) (k0_off2 k) S1x1x2048x64.size (k0_off2_inb k))

/-- Head `k`'s slab starts at `(0, k, 0, 0)` of a query block … -/
theorem off1_coords (k : Fin k0_t1_loop.trips) :
    k0_off1 k (0 : Fin 4) = 0 ∧ k0_off1 k (1 : Fin 4) = k.val ∧ k0_off1 k (2 : Fin 4) = 0 ∧ k0_off1 k (3 : Fin 4) = 0 := by
  rw [k0_off1_eq]; exact ⟨rfl, rfl, rfl, rfl⟩

/-- … and of a key or value block. -/
theorem off2_coords (k : Fin k0_t1_loop.trips) :
    k0_off2 k (0 : Fin 4) = 0 ∧ k0_off2 k (1 : Fin 4) = k.val ∧ k0_off2 k (2 : Fin 4) = 0 ∧ k0_off2 k (3 : Fin 4) = 0 := by
  rw [k0_off2_eq]; exact ⟨rfl, rfl, rfl, rfl⟩

/-- The mask's block holds rows `qi · 64 + r` of batch `b`. -/
theorem mBlk_apply (t : Fin cfg0.N) (r : Fin 64) (j : Fin 2048) (b : Fin 2) (qi : Fin 32) (gi : Fin 2048)
    (hb : win0_5.index t (0 : Fin 4) = b.val) (hq : win0_5.index t (2 : Fin 4) = qi.val) (hgi : gi.val = qi.val * 64 + r.val) :
    mBlk A3 t (ix3 0 r j) = A3 (ix3 b gi j) := by
  obtain ⟨e50, e51, e52, e53, e40, e41, e42, e43, e00, e01, e02, e03, e10, e11, e12, e13, e20, e21, e22, e23, e30, e31, e32⟩ := idx_facts t
  show A3 (((cfg0.win 3).blk t).view.emb (ix3 0 r j)) = A3 (ix3 b gi j)
  refine congrArg A3 (funext fun a => Fin.ext ?_)
  match a with
  | ⟨0, _⟩ => show win0_3.index t (0 : Fin 3) * 1 + 1 * 0 = b.val; omega
  | ⟨1, _⟩ => show win0_3.index t (1 : Fin 3) * 64 + 1 * r.val = gi.val; omega
  | ⟨2, _⟩ => show win0_3.index t (2 : Fin 3) * 2048 + 1 * j.val = j.val; omega

/-- Head `k`'s slab of the query block holds rows `qi · 64 + r` of head `k` of batch `b`. -/
theorem slabQ_apply (t : Fin cfg0.N) (k : Fin k0_t1_loop.trips) (r : Fin 64) (d : Fin 64) (b : Fin 2) (qi : Fin 32) (h : Fin 16)
    (gi : Fin 2048) (hb : win0_5.index t (0 : Fin 4) = b.val) (hq : win0_5.index t (2 : Fin 4) = qi.val)
    (hh : k.val = h.val) (hgi : gi.val = qi.val * 64 + r.val) :
    slabQ (qBlk A0 t) k (ix4 0 0 r d) = A0 (ix4 b h gi d) := by
  obtain ⟨e50, e51, e52, e53, e40, e41, e42, e43, e00, e01, e02, e03, e10, e11, e12, e13, e20, e21, e22, e23, e30, e31, e32⟩ := idx_facts t
  obtain ⟨o0, o1, o2, o3⟩ := off1_coords k
  show A0 (((cfg0.win 0).blk t).view.emb
    ((Rect.unit (s := S1x16x64x64) (k0_off1 k) S1x1x64x64.size (k0_off1_inb k)).idx (ix4 0 0 r d))) = A0 (ix4 b h gi d)
  refine congrArg A0 (funext fun a => Fin.ext ?_)
  match a with
  | ⟨0, _⟩ => show win0_0.index t (0 : Fin 4) * 1 + 1 * (k0_off1 k (0 : Fin 4) + 1 * 0) = b.val; omega
  | ⟨1, _⟩ => show win0_0.index t (1 : Fin 4) * 16 + 1 * (k0_off1 k (1 : Fin 4) + 1 * 0) = h.val; omega
  | ⟨2, _⟩ => show win0_0.index t (2 : Fin 4) * 64 + 1 * (k0_off1 k (2 : Fin 4) + 1 * r.val) = gi.val; omega
  | ⟨3, _⟩ => show win0_0.index t (3 : Fin 4) * 64 + 1 * (k0_off1 k (3 : Fin 4) + 1 * d.val) = d.val; omega

/-- Head `k`'s slab of the key block holds head `k` of batch `b`. -/
theorem slabK_apply (t : Fin cfg0.N) (k : Fin k0_t1_loop.trips) (j : Fin 2048) (d : Fin 64) (b : Fin 2) (h : Fin 16)
    (hb : win0_5.index t (0 : Fin 4) = b.val) (hh : k.val = h.val) :
    slabKV (kBlk A1 t) k (ix4 0 0 j d) = A1 (ix4 b h j d) := by
  obtain ⟨e50, e51, e52, e53, e40, e41, e42, e43, e00, e01, e02, e03, e10, e11, e12, e13, e20, e21, e22, e23, e30, e31, e32⟩ := idx_facts t
  obtain ⟨o0, o1, o2, o3⟩ := off2_coords k
  show A1 (((cfg0.win 1).blk t).view.emb
    ((Rect.unit (s := S1x16x2048x64) (k0_off2 k) S1x1x2048x64.size (k0_off2_inb k)).idx (ix4 0 0 j d))) = A1 (ix4 b h j d)
  refine congrArg A1 (funext fun a => Fin.ext ?_)
  match a with
  | ⟨0, _⟩ => show win0_1.index t (0 : Fin 4) * 1 + 1 * (k0_off2 k (0 : Fin 4) + 1 * 0) = b.val; omega
  | ⟨1, _⟩ => show win0_1.index t (1 : Fin 4) * 16 + 1 * (k0_off2 k (1 : Fin 4) + 1 * 0) = h.val; omega
  | ⟨2, _⟩ => show win0_1.index t (2 : Fin 4) * 2048 + 1 * (k0_off2 k (2 : Fin 4) + 1 * j.val) = j.val; omega
  | ⟨3, _⟩ => show win0_1.index t (3 : Fin 4) * 64 + 1 * (k0_off2 k (3 : Fin 4) + 1 * d.val) = d.val; omega

/-- The block's score row is the arrays' score row. -/
theorem blockScore_eq (t : Fin cfg0.N) (k : Fin k0_t1_loop.trips) (r : Fin 64) (b : Fin 2) (qi : Fin 32) (h : Fin 16)
    (gi : Fin 2048) (hb : win0_5.index t (0 : Fin 4) = b.val) (hq : win0_5.index t (2 : Fin 4) = qi.val)
    (hh : k.val = h.val) (hgi : gi.val = qi.val * 64 + r.val) :
    blockScoreK (mBlk A3 t) (slabQ (qBlk A0 t) k) (slabKV (kBlk A1 t) k) r = scoreRowK A0 A1 A3 b h gi := by
  funext j'
  unfold blockScoreK scoreRowK
  show (if mBlk A3 t (ix3 0 r j') = 0#32 then negInf
      else ∑ d : Fin 64, (slabQ (qBlk A0 t) k (ix4 0 0 r d) * scale) * slabKV (kBlk A1 t) k (ix4 0 0 j' d))
    = if A3 (ix3 b gi j') = 0#32 then negInf else ∑ d : Fin 64, (A0 (ix4 b h gi d) * scale) * A1 (ix4 b h j' d)
  rw [mBlk_apply A3 t r j' b qi gi hb hq hgi]
  refine congrArg (fun s => if A3 (ix3 b gi j') = 0#32 then negInf else s) (Finset.sum_congr rfl fun d _ => ?_)
  rw [slabQ_apply A0 t k r d b qi h gi hb hq hh hgi, slabK_apply A1 t k j' d b h hb hh]

/-- Head `k`'s slab of the value block holds head `k` of batch `b`. -/
theorem slabV_apply (t : Fin cfg0.N) (k : Fin k0_t1_loop.trips) (j : Fin 2048) (d : Fin 64) (b : Fin 2) (h : Fin 16)
    (hb : win0_5.index t (0 : Fin 4) = b.val) (hh : k.val = h.val) :
    slabKV (vBlk A2 t) k (ix4 0 0 j d) = A2 (ix4 b h j d) := by
  obtain ⟨e50, e51, e52, e53, e40, e41, e42, e43, e00, e01, e02, e03, e10, e11, e12, e13, e20, e21, e22, e23, e30, e31, e32⟩ := idx_facts t
  obtain ⟨o0, o1, o2, o3⟩ := off2_coords k
  show A2 (((cfg0.win 2).blk t).view.emb
    ((Rect.unit (s := S1x16x2048x64) (k0_off2 k) S1x1x2048x64.size (k0_off2_inb k)).idx (ix4 0 0 j d))) = A2 (ix4 b h j d)
  refine congrArg A2 (funext fun a => Fin.ext ?_)
  match a with
  | ⟨0, _⟩ => show win0_2.index t (0 : Fin 4) * 1 + 1 * (k0_off2 k (0 : Fin 4) + 1 * 0) = b.val; omega
  | ⟨1, _⟩ => show win0_2.index t (1 : Fin 4) * 16 + 1 * (k0_off2 k (1 : Fin 4) + 1 * 0) = h.val; omega
  | ⟨2, _⟩ => show win0_2.index t (2 : Fin 4) * 2048 + 1 * (k0_off2 k (2 : Fin 4) + 1 * j.val) = j.val; omega
  | ⟨3, _⟩ => show win0_2.index t (3 : Fin 4) * 64 + 1 * (k0_off2 k (3 : Fin 4) + 1 * d.val) = d.val; omega

end Cert.Attention.KI

end
-- ==== Proof.BlockValue.lean ====
/-
  What the body leaves in the two output blocks, read at an index. The run's stores into each block are the sixteen
  heads' tiles, one per trip of the loop, kept apart along the head axis; so entry `(u, h, r, ·)` of a block is head
  `h`'s tile at `(0, 0, r, ·)`: the head's attention weights (a function of the mask block and of head `h`'s slabs of
  the query and key blocks) and the head's output (of those and head `h`'s slab of the value block).
-/
import proofs.«426384_j44942537785819_3_alg».proof.Proof.KernelIdealFrame
import proofs.«426384_j44942537785819_3_alg».proof.Proof.TileRead
import proofs.«426384_j44942537785819_3_alg».proof.Proof.BlockRows

set_option maxRecDepth 16384

noncomputable section

namespace Cert.Attention.KI

open Cert.KernelIdeal Cert.KernelIdeal.Gen
open Idealize.ShloMosaic Idealize.ShloMosaic.TcCoe Idealize.ShloMosaic.ValueIdx

theorem hz3 : (![0, 0, 0] : Fin 3 → Nat) = fun _ => 0 := funext fun a => by fin_cases a <;> rfl

/-- The weights' block after the body, at `(u, h, r, j)`: head `h`'s weights at `(0, r, j)`. -/
theorem out5_apply (c : Dev nD) (i : grid0.Coords) (arg2 : Memref sig .tc .vmem S1x16x64x64 .f32) (harg2 : arg2.IsWhole) (arg3 : Memref sig .tc .vmem S1x16x2048x64 .f32) (harg3 : arg3.IsWhole) (arg4 : Memref sig .tc .vmem S1x16x2048x64 .f32) (harg4 : arg4.IsWhole) (arg5 : Memref sig .tc .vmem S1x64x2048 .i32) (harg5 : arg5.IsWhole) (arg6 : Memref sig .tc .vmem S1x16x64x64 .f32) (harg6 : arg6.IsWhole) (arg7 : Memref sig .tc .vmem S1x16x64x2048 .f32) (harg7 : arg7.IsWhole) (x0 : Vec Ideal S1x16x64x64 .f32) (x1 : Vec Ideal S1x16x2048x64 .f32) (x2 : Vec Ideal S1x16x2048x64 .f32) (x3 : Vec Ideal S1x64x2048 .i32)
    (u : Fin 1) (h : Fin 16) (r : Fin 64) (j : Fin 2048) :
    out0_A_5 (F := Ideal) c i arg2 harg2 arg3 harg3 arg4 harg4 arg5 harg5 arg6 harg6 arg7 harg7 x0 x1 x2 x3 (ix4 u h r j)
      = k0_pay3 (F := Ideal) (k0_pay1 (F := Ideal) x3) (slabQ x0 (tripOf h)) (slabKV x1 (tripOf h)) (ix3 0 r j) := by
  unfold out0_A_5 kernelRun0_A
  dsimp only
  refine (read_tiles5 VO0_5 VO0_5.junk _ u h r j).trans ?_
  rw [headAttn_apply]
  simp only [View.readAt_eq_ld, harg2.read_unread, harg3.read_unread, harg5.read_unread, View.ld_unit_zero (S := S1x64x2048) hz3]

/-- The output block after the body, at `(u, h, r, d)`: head `h`'s output at `(0, r, d)`. -/
theorem out4_apply (c : Dev nD) (i : grid0.Coords) (arg2 : Memref sig .tc .vmem S1x16x64x64 .f32) (harg2 : arg2.IsWhole) (arg3 : Memref sig .tc .vmem S1x16x2048x64 .f32) (harg3 : arg3.IsWhole) (arg4 : Memref sig .tc .vmem S1x16x2048x64 .f32) (harg4 : arg4.IsWhole) (arg5 : Memref sig .tc .vmem S1x64x2048 .i32) (harg5 : arg5.IsWhole) (arg6 : Memref sig .tc .vmem S1x16x64x64 .f32) (harg6 : arg6.IsWhole) (arg7 : Memref sig .tc .vmem S1x16x64x2048 .f32) (harg7 : arg7.IsWhole) (x0 : Vec Ideal S1x16x64x64 .f32) (x1 : Vec Ideal S1x16x2048x64 .f32) (x2 : Vec Ideal S1x16x2048x64 .f32) (x3 : Vec Ideal S1x64x2048 .i32)
    (u : Fin 1) (h : Fin 16) (r d : Fin 64) :
    out0_A_4 (F := Ideal) c i arg2 harg2 arg3 harg3 arg4 harg4 arg5 harg5 arg6 harg6 arg7 harg7 x0 x1 x2 x3 (ix4 u h r d)
      = k0_pay4 (F := Ideal) (k0_pay1 (F := Ideal) x3) (slabQ x0 (tripOf h)) (slabKV x1 (tripOf h)) (slabKV x2 (tripOf h)) (ix3 0 r d) := by
  unfold out0_A_4 kernelRun0_A
  dsimp only
  refine (read_tiles4 VO0_4 VO0_4.junk _ u h r d).trans ?_
  rw [headOut_apply]
  simp only [View.readAt_eq_ld, harg2.read_unread, harg3.read_unread, harg4.read_unread, harg5.read_unread, View.ld_unit_zero (S := S1x64x2048) hz3]

end Cert.Attention.KI

end
-- ==== Proof.Payload.lean ====
/-
  One head's payloads read at an index: the attention weights of the head's 64 query rows are the softmax (product with
  the reciprocal of the sum) of the block's score rows, and the head's output is their contraction with the head's values.

  The weights are computed from the block's masked scores `s` (`-∞` where the mask is zero, elsewhere the contraction of
  the scaled query row with the key row) as `exp (s - M) · (1 / Σ exp (s - M))`, `M` each row's maximum and `Σ` each
  row's sum along the keys, both kept as a column `[1, 64, 1]` and spread back over the 2048 keys. Read at `(0, r, j)`:
  a row reduction is the fold or the sum over the key coordinate of row `r`; the column cast and its spread read the
  row's value; a contraction into the zero splat is the sum over its one contracted coordinate; the format changes are
  the identity on the extended reals. So the weights at `(0, r, j)` are `softRowK` of the block's score row `r` at `j`,
  and the output at `(0, r, d)` is their sum against column `d` of the values.
-/
import proofs.«426384_j44942537785819_3_alg».proof.Proof.Gen.KernelIdeal.Skeleton
import proofs.«426384_j44942537785819_3_alg».proof.Proof.Spec
import Idealize.ShloMosaic.PureOps.Ideal.Laws
import Idealize.ShloMosaic.Lib.Pipeline.Value
import Idealize.ShloMosaic.Lib.ValueLayout
import Idealize.ShloMosaic.Lib.StableHlo.Predicate

noncomputable section

namespace Cert.Attention.Pay

open Cert.KernelIdeal Cert.KernelIdeal.Gen Idealize.ShloMosaic Idealize.ShloMosaic.ValueIdx

/-! ## The reductions along the key axis -/

/-- The source index over row `(u, r)` with key coordinate `k` is `(u, r, k)`. -/
theorem lift_row (h : S1x64x2048.Reduces [2] S1x64) (u : Fin 1) (r : Fin 64) (k : Fin 2048) :
    h.lift (ix2 u r) k = ix3 u r k := by
  funext c
  refine Fin.ext ?_
  match c with
  | ⟨0, _⟩ => rfl
  | ⟨1, _⟩ => rfl
  | ⟨2, _⟩ => rfl

/-- A row's sum over the keys. -/
theorem sum_row (v : FVec Ideal S1x64x2048 .f32) (h : S1x64x2048.Reduces [2] S1x64) (u : Fin 1) (r : Fin 64) :
    multiReduction (F := Ideal) .add [2] S1x64 v 0x00000000#32 h (.inl rfl) rfl (ix2 u r)
      = ∑ k : Fin 2048, v (ix3 u r k) := by
  refine (Ideal.multiReduction_add_single v _ h (.inl rfl) rfl (ix2 u r)).trans ?_
  exact Finset.sum_congr rfl fun k _ => congrArg v (lift_row h u r k)

/-- A row's maximum over the keys: the fold of `max` from `-∞`. -/
theorem max_row (v : FVec Ideal S1x64x2048 .f32) (h : S1x64x2048.Reduces [2] S1x64) (u : Fin 1) (r : Fin 64) :
    multiReduction (F := Ideal) .maximumf [2] S1x64 v 0xFF800000#32 h (.inl rfl) rfl (ix2 u r)
      = rowMax (fun k => v (ix3 u r k)) := by
  refine (Ideal.multiReduction_maximumf_single v _ h (.inl rfl) rfl (ix2 u r)).trans ?_
  have e : (v ∘ h.lift (ix2 u r)) = fun k : Fin 2048 => v (ix3 u r k) :=
    funext fun k => congrArg v (lift_row h u r k)
  rw [e]
  rfl

/-! ## The column of row values: the unit key axis added, then spread over the keys -/

/-- A `[1, 64]` array of row values cast to the column `[1, 64, 1]` reads row `(u, r)` at `(u, r, w)`. -/
theorem col_cast {α : Type} (v : S1x64.Idx → α) (h : S1x64.ShapeCasts S1x64x1) (u : Fin 1) (r : Fin 64) (w : Fin 1) :
    shapeCast S1x64x1 v h (ix3 u r w) = v (ix2 u r) :=
  shapeCast_apply v h _ _ (by
    have hw : w.val = 0 := by omega
    rw [Shape.rowMajor_val_two, Shape.rowMajor_val_three]
    show u.val * 64 + r.val = (u.val * 64 + r.val) * 1 + w.val
    rw [hw, Nat.mul_one, Nat.add_zero])

/-- The column spread over the 2048 keys reads, at `(0, r, j)`, the column's entry of row `r`. -/
theorem col_spread {α : Type} (v : S1x64x1.Idx → α) (h : S1x64x1.Broadcasts S1x64x2048) (r : Fin 64) (j : Fin 2048) :
    broadcastTo S1x64x2048 v h (ix3 (0 : Fin 1) r j) = v (ix3 (0 : Fin 1) r (0 : Fin 1)) := by
  refine broadcastTo_apply v h (ix3 (0 : Fin 1) r j) (ix3 (0 : Fin 1) r (0 : Fin 1)) fun ax => ?_
  match ax with
  | ⟨0, _⟩ => rfl
  | ⟨1, _⟩ => rfl
  | ⟨2, _⟩ => rfl

/-! ## The two contractions read at an index

The scores contract the query's and the key's feature axis (batch axis 0, rows: the query's axis 1, columns: the
key's axis 1); the output contracts the weights' key axis with the values' key axis (batch axis 0, rows: the
weights' axis 1, columns: the values' axis 2). For each, the operand indices at an output index and a contraction
position are read off axis by axis, and the sum over the one-axis contraction index is the sum over its coordinate. -/

theorem lhs_score_0 (i : S1x64x2048.Idx) (q : dot_S1x64x64_S1x2048x64_S1x64x2048_2_2_1_1_0_0.contr.Idx) :
    (dot_S1x64x64_S1x2048x64_S1x64x2048_2_2_1_1_0_0.lhsIdx i q 0).val = (i 0).val := by
  unfold DotDims.lhsIdx
  rw [dif_pos (show (0 : Fin S1x64x64.rank) ∈ dot_S1x64x64_S1x2048x64_S1x64x2048_2_2_1_1_0_0.lhsBatch by decide)]
  rfl
theorem lhs_score_1 (i : S1x64x2048.Idx) (q : dot_S1x64x64_S1x2048x64_S1x64x2048_2_2_1_1_0_0.contr.Idx) :
    (dot_S1x64x64_S1x2048x64_S1x64x2048_2_2_1_1_0_0.lhsIdx i q 1).val = (i 1).val := by
  unfold DotDims.lhsIdx
  rw [dif_neg (show ¬(1 : Fin S1x64x64.rank) ∈ dot_S1x64x64_S1x2048x64_S1x64x2048_2_2_1_1_0_0.lhsBatch by decide), dif_pos (show (1 : Fin S1x64x64.rank) ∈ dot_S1x64x64_S1x2048x64_S1x64x2048_2_2_1_1_0_0.lhsNonContracting by decide)]
  rfl
theorem lhs_score_2 (i : S1x64x2048.Idx) (q : dot_S1x64x64_S1x2048x64_S1x64x2048_2_2_1_1_0_0.contr.Idx) :
    (dot_S1x64x64_S1x2048x64_S1x64x2048_2_2_1_1_0_0.lhsIdx i q 2).val = (q ⟨0, by decide⟩).val :=
  dot_S1x64x64_S1x2048x64_S1x64x2048_2_2_1_1_0_0.lhsIdx_val_of_single rfl i q
theorem rhs_score_0 (i : S1x64x2048.Idx) (q : dot_S1x64x64_S1x2048x64_S1x64x2048_2_2_1_1_0_0.contr.Idx) :
    (dot_S1x64x64_S1x2048x64_S1x64x2048_2_2_1_1_0_0.rhsIdx i q 0).val = (i 0).val := by
  unfold DotDims.rhsIdx
  rw [dif_pos (show (0 : Fin S1x2048x64.rank) ∈ dot_S1x64x64_S1x2048x64_S1x64x2048_2_2_1_1_0_0.rhsBatch by decide)]
  rfl
theorem rhs_score_1 (i : S1x64x2048.Idx) (q : dot_S1x64x64_S1x2048x64_S1x64x2048_2_2_1_1_0_0.contr.Idx) :
    (dot_S1x64x64_S1x2048x64_S1x64x2048_2_2_1_1_0_0.rhsIdx i q 1).val = (i 2).val := by
  unfold DotDims.rhsIdx
  rw [dif_neg (show ¬(1 : Fin S1x2048x64.rank) ∈ dot_S1x64x64_S1x2048x64_S1x64x2048_2_2_1_1_0_0.rhsBatch by decide), dif_pos (show (1 : Fin S1x2048x64.rank) ∈ dot_S1x64x64_S1x2048x64_S1x64x2048_2_2_1_1_0_0.rhsNonContracting by decide)]
  rfl
theorem rhs_score_2 (i : S1x64x2048.Idx) (q : dot_S1x64x64_S1x2048x64_S1x64x2048_2_2_1_1_0_0.contr.Idx) :
    (dot_S1x64x64_S1x2048x64_S1x64x2048_2_2_1_1_0_0.rhsIdx i q 2).val = (q ⟨0, by decide⟩).val :=
  dot_S1x64x64_S1x2048x64_S1x64x2048_2_2_1_1_0_0.rhsIdx_val_of_single rfl i q

/-- The score contraction into the zero splat, at `(u, r, j)`: the sum over the feature coordinate of the query row's
    and the key row's entries. -/
theorem score_apply (a : FVec Ideal S1x64x64 .bf16) (b : FVec Ideal S1x2048x64 .bf16) (u : Fin 1) (r : Fin 64) (j : Fin 2048) :
    matmul dot_S1x64x64_S1x2048x64_S1x64x2048_2_2_1_1_0_0 none a b (constant (F := Ideal) S1x64x2048 .f32 0x00000000#32) (ix3 u r j)
      = ∑ d : Fin 64, a (ix3 u r d) * b (ix3 u j d) := by
  simp only [matmul]
  rw [Ideal.matmul_constant_zero_apply, ← Equiv.sum_comp (contrEquiv1 dot_S1x64x64_S1x2048x64_S1x64x2048_2_2_1_1_0_0 64 rfl rfl).symm]
  refine Finset.sum_congr rfl fun k _ => ?_
  have hk := contrEquiv1_symm_val dot_S1x64x64_S1x2048x64_S1x64x2048_2_2_1_1_0_0 64 rfl rfl k
  have el : dot_S1x64x64_S1x2048x64_S1x64x2048_2_2_1_1_0_0.lhsIdx (ix3 u r j) ((contrEquiv1 dot_S1x64x64_S1x2048x64_S1x64x2048_2_2_1_1_0_0 64 rfl rfl).symm k) = ix3 u r k := funext fun c => Fin.ext (by
    match c with
    | ⟨0, _⟩ => exact lhs_score_0 _ _
    | ⟨1, _⟩ => exact lhs_score_1 _ _
    | ⟨2, _⟩ => exact (lhs_score_2 _ _).trans hk)
  have er : dot_S1x64x64_S1x2048x64_S1x64x2048_2_2_1_1_0_0.rhsIdx (ix3 u r j) ((contrEquiv1 dot_S1x64x64_S1x2048x64_S1x64x2048_2_2_1_1_0_0 64 rfl rfl).symm k) = ix3 u j k := funext fun c => Fin.ext (by
    match c with
    | ⟨0, _⟩ => exact rhs_score_0 _ _
    | ⟨1, _⟩ => exact rhs_score_1 _ _
    | ⟨2, _⟩ => exact (rhs_score_2 _ _).trans hk)
  rw [el, er]

theorem lhs_out_0 (i : S1x64x64.Idx) (q : dot_S1x64x2048_S1x2048x64_S1x64x64_2_1_1_2_0_0.contr.Idx) :
    (dot_S1x64x2048_S1x2048x64_S1x64x64_2_1_1_2_0_0.lhsIdx i q 0).val = (i 0).val := by
  unfold DotDims.lhsIdx
  rw [dif_pos (show (0 : Fin S1x64x2048.rank) ∈ dot_S1x64x2048_S1x2048x64_S1x64x64_2_1_1_2_0_0.lhsBatch by decide)]
  rfl
theorem lhs_out_1 (i : S1x64x64.Idx) (q : dot_S1x64x2048_S1x2048x64_S1x64x64_2_1_1_2_0_0.contr.Idx) :
    (dot_S1x64x2048_S1x2048x64_S1x64x64_2_1_1_2_0_0.lhsIdx i q 1).val = (i 1).val := by
  unfold DotDims.lhsIdx
  rw [dif_neg (show ¬(1 : Fin S1x64x2048.rank) ∈ dot_S1x64x2048_S1x2048x64_S1x64x64_2_1_1_2_0_0.lhsBatch by decide), dif_pos (show (1 : Fin S1x64x2048.rank) ∈ dot_S1x64x2048_S1x2048x64_S1x64x64_2_1_1_2_0_0.lhsNonContracting by decide)]
  rfl
theorem lhs_out_2 (i : S1x64x64.Idx) (q : dot_S1x64x2048_S1x2048x64_S1x64x64_2_1_1_2_0_0.contr.Idx) :
    (dot_S1x64x2048_S1x2048x64_S1x64x64_2_1_1_2_0_0.lhsIdx i q 2).val = (q ⟨0, by decide⟩).val :=
  dot_S1x64x2048_S1x2048x64_S1x64x64_2_1_1_2_0_0.lhsIdx_val_of_single rfl i q
theorem rhs_out_0 (i : S1x64x64.Idx) (q : dot_S1x64x2048_S1x2048x64_S1x64x64_2_1_1_2_0_0.contr.Idx) :
    (dot_S1x64x2048_S1x2048x64_S1x64x64_2_1_1_2_0_0.rhsIdx i q 0).val = (i 0).val := by
  unfold DotDims.rhsIdx
  rw [dif_pos (show (0 : Fin S1x2048x64.rank) ∈ dot_S1x64x2048_S1x2048x64_S1x64x64_2_1_1_2_0_0.rhsBatch by decide)]
  rfl
theorem rhs_out_1 (i : S1x64x64.Idx) (q : dot_S1x64x2048_S1x2048x64_S1x64x64_2_1_1_2_0_0.contr.Idx) :
    (dot_S1x64x2048_S1x2048x64_S1x64x64_2_1_1_2_0_0.rhsIdx i q 1).val = (q ⟨0, by decide⟩).val :=
  dot_S1x64x2048_S1x2048x64_S1x64x64_2_1_1_2_0_0.rhsIdx_val_of_single rfl i q
theorem rhs_out_2 (i : S1x64x64.Idx) (q : dot_S1x64x2048_S1x2048x64_S1x64x64_2_1_1_2_0_0.contr.Idx) :
    (dot_S1x64x2048_S1x2048x64_S1x64x64_2_1_1_2_0_0.rhsIdx i q 2).val = (i 2).val := by
  unfold DotDims.rhsIdx
  rw [dif_neg (show ¬(2 : Fin S1x2048x64.rank) ∈ dot_S1x64x2048_S1x2048x64_S1x64x64_2_1_1_2_0_0.rhsBatch by decide), dif_pos (show (2 : Fin S1x2048x64.rank) ∈ dot_S1x64x2048_S1x2048x64_S1x64x64_2_1_1_2_0_0.rhsNonContracting by decide)]
  rfl

/-- The output contraction into the zero splat, at `(u, r, d)`: the sum over the key coordinate of the weights' row
    and the values' column. -/
theorem out_apply (a : FVec Ideal S1x64x2048 .bf16) (b : FVec Ideal S1x2048x64 .bf16) (u : Fin 1) (r : Fin 64) (d : Fin 64) :
    matmul dot_S1x64x2048_S1x2048x64_S1x64x64_2_1_1_2_0_0 none a b (constant (F := Ideal) S1x64x64 .f32 0x00000000#32) (ix3 u r d)
      = ∑ j : Fin 2048, a (ix3 u r j) * b (ix3 u j d) := by
  simp only [matmul]
  rw [Ideal.matmul_constant_zero_apply, ← Equiv.sum_comp (contrEquiv1 dot_S1x64x2048_S1x2048x64_S1x64x64_2_1_1_2_0_0 2048 rfl rfl).symm]
  refine Finset.sum_congr rfl fun k _ => ?_
  have hk := contrEquiv1_symm_val dot_S1x64x2048_S1x2048x64_S1x64x64_2_1_1_2_0_0 2048 rfl rfl k
  have el : dot_S1x64x2048_S1x2048x64_S1x64x64_2_1_1_2_0_0.lhsIdx (ix3 u r d) ((contrEquiv1 dot_S1x64x2048_S1x2048x64_S1x64x64_2_1_1_2_0_0 2048 rfl rfl).symm k) = ix3 u r k := funext fun c => Fin.ext (by
    match c with
    | ⟨0, _⟩ => exact lhs_out_0 _ _
    | ⟨1, _⟩ => exact lhs_out_1 _ _
    | ⟨2, _⟩ => exact (lhs_out_2 _ _).trans hk)
  have er : dot_S1x64x2048_S1x2048x64_S1x64x64_2_1_1_2_0_0.rhsIdx (ix3 u r d) ((contrEquiv1 dot_S1x64x2048_S1x2048x64_S1x64x64_2_1_1_2_0_0 2048 rfl rfl).symm k) = ix3 u k d := funext fun c => Fin.ext (by
    match c with
    | ⟨0, _⟩ => exact rhs_out_0 _ _
    | ⟨1, _⟩ => exact (rhs_out_1 _ _).trans hk
    | ⟨2, _⟩ => exact rhs_out_2 _ _)
  rw [el, er]

/-! ## The softmax of a block of scores, as the kernel takes it -/

/-- The shifted exponentials: from every entry its row's maximum (taken along the keys, kept as a column and spread
    back over the keys) is subtracted, and the exponential taken. -/
def expShift (s : FVec Ideal S1x64x2048 .f32) : FVec Ideal S1x64x2048 .f32 :=
  exp (subf s (broadcastTo S1x64x2048
    (shapeCast S1x64x1 (multiReduction (F := Ideal) .maximumf [2] S1x64 s 0xFF800000#32 reduces_S1x64x2048_S1x64 (.inl rfl) rfl)
      shapeCasts_S1x64_S1x64x1) broadcasts_S1x64x1_S1x64x2048))

/-- The reciprocal of every row's sum (taken along the keys, kept as a column), spread back over the keys. -/
def recipSum (e : FVec Ideal S1x64x2048 .f32) : FVec Ideal S1x64x2048 .f32 :=
  broadcastTo S1x64x2048
    (divf (broadcast S1x64x1 (Scalar.ofBits (F := Ideal) .f32 0x3F800000#32))
      (shapeCast S1x64x1 (multiReduction (F := Ideal) .add [2] S1x64 e 0x00000000#32 reduces_S1x64x2048_S1x64 (.inl rfl) rfl)
        shapeCasts_S1x64_S1x64x1)) broadcasts_S1x64x1_S1x64x2048

/-- Entry `(0, r, j)` of the shifted exponentials is the row's `rowNum` at `j`. -/
theorem expShift_apply (s : FVec Ideal S1x64x2048 .f32) (r : Fin 64) (j : Fin 2048) :
    expShift s (ix3 0 r j) = rowNum (fun j' => s (ix3 0 r j')) j := by
  unfold expShift rowNum
  show Ideal.exp (s (ix3 0 r j) - broadcastTo S1x64x2048 _ _ (ix3 0 r j)) = _
  rw [col_spread, col_cast, max_row]

/-- Entry `(0, r, j)` of the spread reciprocal is `1` over the row's sum. -/
theorem recipSum_apply (e : FVec Ideal S1x64x2048 .f32) (r : Fin 64) (j : Fin 2048) :
    recipSum e (ix3 0 r j) = Ideal.div one (∑ j' : Fin 2048, e (ix3 0 r j')) := by
  unfold recipSum
  rw [col_spread]
  show Ideal.div one (shapeCast S1x64x1 _ _ (ix3 0 r 0)) = _
  rw [col_cast, sum_row]

/-- So the product of the two, at `(0, r, j)`, is the softmax of row `r` at `j`, the sum's reciprocal multiplied in. -/
theorem soft_apply (s : FVec Ideal S1x64x2048 .f32) (r : Fin 64) (j : Fin 2048) :
    mulf (expShift s) (recipSum (expShift s)) (ix3 0 r j) = softRowK (fun j' => s (ix3 0 r j')) j := by
  rw [mulf_apply, expShift_apply, recipSum_apply]
  unfold softRowK rowDen
  exact congrArg (fun t => rowNum (fun j' => s (ix3 0 r j')) j * Ideal.div one t)
    (Finset.sum_congr rfl fun j' _ => expShift_apply s r j')

/-! ## The masked scores of the block -/

/-- A select on "the word is zero" is the `if`. -/
theorem select_cmpi_zero {α : Type} (w : BitVec 32) (a b : α) :
    Scalar.select (IntOp.cmpi .eq w 0#32) a b = if w = 0#32 then a else b := by
  by_cases h : w = 0#32
  · rw [if_pos h, StableHlo.Predicate.cmpi_eq_iff.mpr h, select_one]
  · rw [if_neg h, eq_zero_of_ne_one (fun h1 => h (StableHlo.Predicate.cmpi_eq_iff.mp h1)), select_zero]

/-- The mask block compared with zero, at `(r, j)`. -/
theorem mask_apply (x3 : Vec Ideal S1x64x2048 .i32) (r : Fin 64) (j : Fin 2048) :
    k0_pay1 (F := Ideal) x3 (ix2 r j) = IntOp.cmpi .eq (x3 (ix3 0 r j)) 0#32 := by
  unfold k0_pay1
  exact congrArg (fun w => IntOp.cmpi .eq w 0#32) (shapeCast_1ab_ab_apply x3 _ r j)

/-- The block's masked scores: `-∞` where the mask is zero, elsewhere the contraction of the scaled query row with the
    key row. -/
def masked (x3 : Vec Ideal S1x64x2048 .i32) (qh : Vec Ideal S1x1x64x64 .f32) (kh : Vec Ideal S1x1x2048x64 .f32) :
    FVec Ideal S1x64x2048 .f32 :=
  select (shapeCast S1x64x2048 (k0_pay1 (F := Ideal) x3) shapeCasts_S64x2048_S1x64x2048)
    (broadcast S1x64x2048 (Scalar.ofBits (F := Ideal) .f32 0xFF800000#32))
    (matmul dot_S1x64x64_S1x2048x64_S1x64x2048_2_2_1_1_0_0 none
      (truncf .bf16 (mulf (shapeCast S1x64x64 qh shapeCasts_S1x1x64x64_S1x64x64)
        (broadcast S1x64x64 (Scalar.ofBits (F := Ideal) .f32 0x3E000000#32))) bitsLt_bf16_f32)
      (truncf .bf16 (shapeCast S1x2048x64 kh shapeCasts_S1x1x2048x64_S1x2048x64) bitsLt_bf16_f32)
      (constant (F := Ideal) S1x64x2048 .f32 0x00000000#32))

/-- Row `r` of them is the block's score row. -/
theorem masked_apply (x3 : Vec Ideal S1x64x2048 .i32) (qh : Vec Ideal S1x1x64x64 .f32) (kh : Vec Ideal S1x1x2048x64 .f32)
    (r : Fin 64) (j : Fin 2048) : masked x3 qh kh (ix3 0 r j) = blockScoreK x3 qh kh r j := by
  unfold masked blockScoreK
  rw [select_apply, shapeCast_ab_1ab_apply, mask_apply, score_apply, select_cmpi_zero]
  refine congrArg (fun t => if x3 (ix3 0 r j) = 0#32 then negInf else t) (Finset.sum_congr rfl fun d _ => ?_)
  show (shapeCast S1x64x64 qh _ (ix3 0 r d) * scale) * shapeCast S1x2048x64 kh _ (ix3 0 j d) = _
  rw [shapeCast_1abc_abc_apply, shapeCast_1abc_abc_apply]

/-! ## The two payloads -/

theorem pay3_apply (x3 : Vec Ideal S1x64x2048 .i32) (qh : Vec Ideal S1x1x64x64 .f32) (kh : Vec Ideal S1x1x2048x64 .f32)
    (r : Fin 64) (j : Fin 2048) :
    k0_pay3 (F := Ideal) (k0_pay1 (F := Ideal) x3) qh kh (ix3 0 r j) = softRowK (blockScoreK x3 qh kh r) j := by
  have hrow : (fun j' => masked x3 qh kh (ix3 0 r j')) = blockScoreK x3 qh kh r := funext (masked_apply x3 qh kh r)
  rw [← hrow]
  exact soft_apply (masked x3 qh kh) r j

theorem pay4_apply (x3 : Vec Ideal S1x64x2048 .i32) (qh : Vec Ideal S1x1x64x64 .f32) (kh vh : Vec Ideal S1x1x2048x64 .f32)
    (r : Fin 64) (d : Fin 64) :
    k0_pay4 (F := Ideal) (k0_pay1 (F := Ideal) x3) qh kh vh (ix3 0 r d)
      = ∑ j : Fin 2048, softRowK (blockScoreK x3 qh kh r) j * vh (ix4 0 0 j d) := by
  unfold k0_pay4
  refine (out_apply _ _ 0 r d).trans (Finset.sum_congr rfl fun j _ => ?_)
  show k0_pay3 (F := Ideal) (k0_pay1 (F := Ideal) x3) qh kh (ix3 0 r j) * shapeCast S1x2048x64 vh _ (ix3 0 j d) = _
  rw [pay3_apply, shapeCast_1abc_abc_apply]

end Cert.Attention.Pay

end
-- ==== Proof.Final.lean ====
/-
  The kernel's two result arrays. At grid point `t` (batch `b`, query tile `qi`) what is written back to each output
  array is the block `t` of ONE function of the argument arrays: entry `(u, h, r, ·)` of the block is head `h`'s result
  for query row `qi · 64 + r` of batch `b` — the row softmax of the masked scaled scores (query scaled first, the sum's
  reciprocal multiplied in) and its contraction with the values. The blocks of the 2 × 32 points tile each array, so
  the arrays end holding those functions whole.
-/
import proofs.«426384_j44942537785819_3_alg».proof.Proof.KernelIdealValue
import proofs.«426384_j44942537785819_3_alg».proof.Proof.BlockValue
import proofs.«426384_j44942537785819_3_alg».proof.Proof.Payload

set_option maxRecDepth 16384

noncomputable section

namespace Cert.Attention.KI

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument arrays as the region finds them, at their literal types. -/
abbrev qArr (c : Dev nD) : S2x16x2048x64.Idx → EReal := V m c main_arg0
abbrev kArr (c : Dev nD) : S2x16x2048x64.Idx → EReal := V m c main_arg1
abbrev vArr (c : Dev nD) : S2x16x2048x64.Idx → EReal := V m c main_arg2
abbrev mArr (c : Dev nD) : S2x2048x2048.Idx → BitVec 32 := V m c main_arg3

/-! ## The weights' array (window 5) -/

/-- What point `t` writes back to the weights' array is block `t` of the attention weights. -/
theorem flushed5_eq (c : Dev nD) (t : Fin cfg0.N) :
    (dats m 0 c).flushed 5 t
      = ((cfg0.win 5).blk t).view.read (Elt Ideal) (attnK (qArr m c) (kArr m c) (mArr m c)) := by
  rw [flushed5_A]
  funext y
  obtain ⟨u, h, r, j, rfl⟩ : ∃ (u : Fin 1) (h : Fin 16) (r : Fin 64) (j : Fin 2048), y = ix4 u h r j :=
    ⟨y 0, y 1, y 2, y 3, eq_ix4 y⟩
  obtain ⟨e0, e1, e2, e3, -⟩ := idx_facts t
  have hu : u.val = 0 := by omega
  show out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (qBlk (qArr m c) t) (kBlk (kArr m c) t) (vBlk (vArr m c) t) (mBlk (mArr m c) t) (ix4 u h r j)
    = attnK (qArr m c) (kArr m c) (mArr m c) (((cfg0.win 5).blk t).view.emb (ix4 u h r j))
  rw [out5_apply, Pay.pay3_apply]
  have hidx : ((cfg0.win 5).blk t).view.emb (ix4 u h r j)
      = (ix4 (⟨win0_5.index t (0 : Fin 4), by omega⟩ : Fin 2) h (⟨win0_5.index t (2 : Fin 4) * 64 + r.val, by omega⟩ : Fin 2048) j : S2x16x2048x2048.Idx) := by
    funext a; apply Fin.ext
    match a with
    | ⟨0, _⟩ => show win0_5.index t (0 : Fin 4) * 1 + 1 * u.val = win0_5.index t (0 : Fin 4); omega
    | ⟨1, _⟩ => show win0_5.index t (1 : Fin 4) * 16 + 1 * h.val = h.val; omega
    | ⟨2, _⟩ => show win0_5.index t (2 : Fin 4) * 64 + 1 * r.val = win0_5.index t (2 : Fin 4) * 64 + r.val; omega
    | ⟨3, _⟩ => show win0_5.index t (3 : Fin 4) * 2048 + 1 * j.val = j.val; omega
  rw [hidx]
  show softRowK _ j = softRowK (scoreRowK (qArr m c) (kArr m c) (mArr m c) _ h _) j
  rw [blockScore_eq (qArr m c) (kArr m c) (mArr m c) t (tripOf h) r ⟨win0_5.index t (0 : Fin 4), by omega⟩
    ⟨win0_5.index t (2 : Fin 4), by omega⟩ h ⟨win0_5.index t (2 : Fin 4) * 64 + r.val, by omega⟩ rfl rfl rfl rfl]

/-- An index of the weights' array is in point `t`'s block iff each coordinate is in the block's range on its axis. -/
theorem mem_blk5 (t : Fin cfg0.N) (i : S2x16x2048x2048.Idx) :
    i ∈ ((cfg0.win 5).blk t).view.set ↔ ∀ a : Fin 4, win0_5.index t a * S1x16x64x2048.size a ≤ (i a).val
      ∧ (i a).val < win0_5.index t a * S1x16x64x2048.size a + S1x16x64x2048.size a := by
  show i ∈ ((View.whole main_v0_1).slice (win0_5.rect t)).set ↔ _
  rw [View.set_slice_whole, Rect.mem_set_unit]
  exact Iff.rfl

/-- Every index of the weights' array is in some point's block. -/
theorem cover5 (i : S2x16x2048x2048.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, hb, hq⟩ := idx_onto ⟨(i 0).val, h0⟩ ⟨(i 2).val / 64, by omega⟩
  have hb' : win0_5.index t (0 : Fin 4) = (i 0).val := hb
  have hq' : win0_5.index t (2 : Fin 4) = (i 2).val / 64 := hq
  obtain ⟨-, e1, -, e3, -⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 64 ≤ (i 2).val ∧ (i 2).val < win0_5.index t (2 : Fin 4) * 64 + 64; omega
  | ⟨3, _⟩ => show win0_5.index t (3 : Fin 4) * 2048 ≤ (i 3).val ∧ (i 3).val < win0_5.index t (3 : Fin 4) * 2048 + 2048; omega

/-- The weights' array after the run. -/
theorem final5 (c : Dev nD) : (dats m 0 c).arrAt 5 cfg0.N = attnK (qArr m c) (kArr m c) (mArr m c) :=
  (dats m 0 c).arrAt_eq_of_cover 5 (attnK (qArr m c) (kArr m c) (mArr m c)) (fun t _ => flushed5_eq m c t) cover5

/-! ## The output array (window 4) -/

/-- What point `t` writes back to the output array is block `t` of the attention output. -/
theorem flushed4_eq (c : Dev nD) (t : Fin cfg0.N) :
    (dats m 0 c).flushed 4 t
      = ((cfg0.win 4).blk t).view.read (Elt Ideal) (outK (qArr m c) (kArr m c) (vArr m c) (mArr m c)) := by
  rw [flushed4_A]
  funext y
  obtain ⟨u, h, r, d, rfl⟩ : ∃ (u : Fin 1) (h : Fin 16) (r : Fin 64) (d : Fin 64), y = ix4 u h r d :=
    ⟨y 0, y 1, y 2, y 3, eq_ix4 y⟩
  obtain ⟨e0, e1, e2, e3, f0, f1, f2, f3, -⟩ := idx_facts t
  have hu : u.val = 0 := by omega
  show out0_A_4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (qBlk (qArr m c) t) (kBlk (kArr m c) t) (vBlk (vArr m c) t) (mBlk (mArr m c) t) (ix4 u h r d)
    = outK (qArr m c) (kArr m c) (vArr m c) (mArr m c) (((cfg0.win 4).blk t).view.emb (ix4 u h r d))
  rw [out4_apply, Pay.pay4_apply]
  have hidx : ((cfg0.win 4).blk t).view.emb (ix4 u h r d)
      = (ix4 (⟨win0_5.index t (0 : Fin 4), by omega⟩ : Fin 2) h (⟨win0_5.index t (2 : Fin 4) * 64 + r.val, by omega⟩ : Fin 2048) d : S2x16x2048x64.Idx) := by
    funext a; apply Fin.ext
    match a with
    | ⟨0, _⟩ => show win0_4.index t (0 : Fin 4) * 1 + 1 * u.val = win0_5.index t (0 : Fin 4); omega
    | ⟨1, _⟩ => show win0_4.index t (1 : Fin 4) * 16 + 1 * h.val = h.val; omega
    | ⟨2, _⟩ => show win0_4.index t (2 : Fin 4) * 64 + 1 * r.val = win0_5.index t (2 : Fin 4) * 64 + r.val; omega
    | ⟨3, _⟩ => show win0_4.index t (3 : Fin 4) * 64 + 1 * d.val = d.val; omega
  rw [hidx]
  show (∑ j : Fin 2048, softRowK _ j * _) = ∑ j : Fin 2048, softRowK (scoreRowK (qArr m c) (kArr m c) (mArr m c) _ h _) j * vArr m c (ix4 _ h j d)
  rw [blockScore_eq (qArr m c) (kArr m c) (mArr m c) t (tripOf h) r ⟨win0_5.index t (0 : Fin 4), by omega⟩
    ⟨win0_5.index t (2 : Fin 4), by omega⟩ h ⟨win0_5.index t (2 : Fin 4) * 64 + r.val, by omega⟩ rfl rfl rfl rfl]
  refine Finset.sum_congr rfl fun j _ => ?_
  rw [slabV_apply (vArr m c) t (tripOf h) j d ⟨win0_5.index t (0 : Fin 4), by omega⟩ h rfl rfl]

/-- An index of the output array is in point `t`'s block iff each coordinate is in the block's range on its axis. -/
theorem mem_blk4 (t : Fin cfg0.N) (i : S2x16x2048x64.Idx) :
    i ∈ ((cfg0.win 4).blk t).view.set ↔ ∀ a : Fin 4, win0_4.index t a * S1x16x64x64.size a ≤ (i a).val
      ∧ (i a).val < win0_4.index t a * S1x16x64x64.size a + S1x16x64x64.size a := by
  show i ∈ ((View.whole main_v0_0).slice (win0_4.rect t)).set ↔ _
  rw [View.set_slice_whole, Rect.mem_set_unit]
  exact Iff.rfl

/-- Every index of the output array is in some point's block. -/
theorem cover4 (i : S2x16x2048x64.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, hb, hq⟩ := idx_onto ⟨(i 0).val, h0⟩ ⟨(i 2).val / 64, by omega⟩
  have hb' : win0_5.index t (0 : Fin 4) = (i 0).val := hb
  have hq' : win0_5.index t (2 : Fin 4) = (i 2).val / 64 := hq
  obtain ⟨-, -, -, -, f0, f1, f2, f3, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 64 ≤ (i 2).val ∧ (i 2).val < win0_4.index t (2 : Fin 4) * 64 + 64; omega
  | ⟨3, _⟩ => show win0_4.index t (3 : Fin 4) * 64 ≤ (i 3).val ∧ (i 3).val < win0_4.index t (3 : Fin 4) * 64 + 64; omega

/-- The output array after the run. -/
theorem final4 (c : Dev nD) : (dats m 0 c).arrAt 4 cfg0.N = outK (qArr m c) (kArr m c) (vArr m c) (mArr m c) :=
  (dats m 0 c).arrAt_eq_of_cover 4 (outK (qArr m c) (kArr m c) (vArr m c) (mArr m c)) (fun t _ => flushed4_eq m c t) cover4

/-! ## The run -/

/-- Every weakly fair execution of the kernel ends with the attention output and the attention weights (query scaled
    first, the sum's reciprocal multiplied in) of its arguments in the two result arrays, the arguments unchanged. -/
theorem kernel_run : θ_run defs (onTc (τ := τ) (main (F := Ideal))) ⟨m, fun _ => 0, ρ⟩ fun r => ∀ c : Dev nD,
      r.2.mem ((c : Thread nD τ).loc main_v0_0) = outK (m ((c : Thread nD τ).loc main_arg0)) (m ((c : Thread nD τ).loc main_arg1))
          (m ((c : Thread nD τ).loc main_arg2)) (m ((c : Thread nD τ).loc main_arg3))
      ∧ r.2.mem ((c : Thread nD τ).loc main_v0_1) = attnK (m ((c : Thread nD τ).loc main_arg0)) (m ((c : Thread nD τ).loc main_arg1))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.Attention.KI

end
-- ==== Proof.lean ====
/-
  The certificate of masked scaled-dot-product attention: a kernel that keeps all sixteen heads of one batch element
  and one tile of 64 query rows resident, loops over the heads, and for each head scales the query by 1/8, contracts
  it with the keys, fills the masked scores with -∞, takes the row softmax as `exp (s - max) · (1 / Σ)` and contracts
  the weights with the values — against the reference `softmax (where (mask = 0, -∞, (q · kᵀ) · 1/8)) · v`, which
  divides by the row sum.

  On the extended reals the two agree wherever the reference's softmax is defined. The scale moves across the
  contraction by distributivity over finite sums of reals (the queries and keys are finite by the precondition). The
  product with the reciprocal of the row sum is the quotient by it as soon as the sum is not zero; it is zero exactly
  on a row whose every position is masked, where the reference's own result is `0 / 0` (a NaN for the floats): the
  precondition's last conjunct, that every mask row has a nonzero entry, is the reference's domain. On such rows the
  maximum is a real number, the entry that attains it contributes `exp 0 = 1`, and the sum is at least one.

  The modules: Spec (the attention function in both arrangements), RowMath (the two arrangements agree), PreDecode
  (what the precondition says of the arguments), RefSide (the reference's results are the specification), Payload
  (one head's arithmetic read at an index), TripPieces / TileRead / BlockValue (what the loop over the heads leaves in
  the output blocks), GridFacts / BlockRows (from a block to the arrays), Final (the kernel's result arrays are the
  specification in the kernel's arrangement).
-/
import proofs.«426384_j44942537785819_3_alg».proof.Defs
import proofs.«426384_j44942537785819_3_alg».proof.Proof.Gen.Kernel
import proofs.«426384_j44942537785819_3_alg».proof.Proof.KernelFrame
import proofs.«426384_j44942537785819_3_alg».proof.Proof.Gen.KernelIdeal
import proofs.«426384_j44942537785819_3_alg».proof.Proof.KernelIdealFrame
import proofs.«426384_j44942537785819_3_alg».proof.Proof.KernelIdealValue
import proofs.«426384_j44942537785819_3_alg».proof.Proof.Gen.ReferenceIdeal
import proofs.«426384_j44942537785819_3_alg».proof.Proof.Gen.ReferenceIdeal.Run
import proofs.«426384_j44942537785819_3_alg».proof.Proof.Gen.ReferenceIdeal.Read
import proofs.«426384_j44942537785819_3_alg».proof.Proof.Gen.Pre_finite_inputs
import proofs.«426384_j44942537785819_3_alg».proof.Proof.Spec
import proofs.«426384_j44942537785819_3_alg».proof.Proof.RowMath
import proofs.«426384_j44942537785819_3_alg».proof.Proof.PreDecode
import proofs.«426384_j44942537785819_3_alg».proof.Proof.RefSide
import proofs.«426384_j44942537785819_3_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the attention output and the attention weights of the shared arguments: the kernel's
    arrays hold them in the arrangement that scales first and multiplies by the reciprocal (Final), which under the
    precondition is the reference's arrangement (RowMath), and the reference's results are that by reading its
    operations one at a time (RefSide). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attention.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Attention.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun r h c => ?_) (Cert.Attention.KI.kernel_run m ρ)
    obtain ⟨hq, hk, hm⟩ := Cert.Attention.Pre.of_pre _ _ _ _ (hpre c)
    obtain ⟨h0, h1, h2, h3, h4, h5⟩ := h c
    exact ⟨h0.trans (Cert.Attention.outK_eq_out _ _ _ _ hq hk hm), h1.trans (Cert.Attention.attnK_eq_attn _ _ _ hq hk hm),
      h2, h3, h4, h5⟩
  · refine (θ_run Cert.ReferenceIdeal.defs _ _).mono (fun r h c => ?_) (Cert.ReferenceIdeal.Value.run (F := Ideal) m' ρ')
    obtain ⟨a0, a1, a2, a3⟩ := hagree c
    obtain ⟨h0, h1, h2, h3, h4, h5⟩ := h c
    refine ⟨h0.trans ?_, h1.trans ?_, h2, h3, h4, h5⟩
    · rw [Cert.ReferenceIdeal.Read.val_main_v18_eq, Cert.Attention.Ref.ref_out, a0, a1, a2, a3]
    · rw [Cert.ReferenceIdeal.Read.val_main_v17_eq, Cert.Attention.Ref.ref_attn, a0, a1, a3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
